-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000000x1 : Shape := ⟨2, ![5000000, 1]⟩
abbrev S2x80000000 : Shape := ⟨2, ![2, 80000000]⟩
abbrev S1x1 : Shape := ⟨2, ![1, 1]⟩
abbrev S1 : Shape := ⟨1, ![1]⟩
abbrev S2x50 : Shape := ⟨2, ![2, 50]⟩
abbrev S2 : Shape := ⟨1, ![2]⟩
abbrev S_ : Shape := ⟨0, ![]⟩

class Facts : Prop where
  bcast_S_S5000000x1 : S_.BroadcastsInDim S5000000x1 (![] : Fin 0 → Fin S5000000x1.rank)
  reducesTo_S5000000x1_S_d0_1 : S5000000x1.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S2x50 : S_.BroadcastsInDim S2x50 (![] : Fin 0 → Fin S2x50.rank)
  reducesTo_S2x50_S_d0_1 : S2x50.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S2x50 1) : IVec S_ 1 :=
  let main_c_5 : IVec S_ 1 := constantI S_ 1 1#1
  let main_v17 : IVec S_ 1 := (fun x v => Host.reduce IntOp.andi x v reducesTo_S2x50_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S5000000x1 .f32) (main_arg1 : IVec S2x80000000 32) (main_arg2 : FVec F S1x1 .f32) (main_arg3 : FVec F S1 .f32) (main_arg4 : FVec F S2x50 .f32) (main_arg5 : FVec F S2 .f32) : IVec S_ 1 :=
  let main_v0 : FVec F S5000000x1 .f32 := Host.absf main_arg0
  let main_cst : FVec F S_ .f32 := constant S_ .f32 0x7F800000#32
  let main_v1 : FVec F S5000000x1 .f32 := broadcastInDim S5000000x1 ![] bcast_S_S5000000x1 main_cst
  let main_v2 : IVec S5000000x1 1 := cmpf .olt main_v0 main_v1
  let main_c : IVec S_ 1 := constantI S_ 1 1#1
  let main_v3 : IVec S_ 1 := (fun x v => Host.reduce IntOp.andi x v reducesTo_S5000000x1_S_d0_1 h_S_) main_v2 main_c
  let main_v4 : FVec F S1x1 .f32 := Host.absf main_arg2
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2x50 .f32 := Host.absf main_arg4
  let main_cst_4 : FVec F S_ .f32 := constant S_ .f32 0x7F800000#32
  let main_v15 : FVec F S2x50 .f32 := broadcastInDim S2x50 ![] bcast_S_S2x50 main_cst_4
  let main_v16 : IVec S2x50 1 := cmpf .olt main_v14 main_v15
  fn_part1 (F := F) main_arg5 main_v13 main_v16
-- ==== Kernel.lean ====
abbrev S5000000x1 : Shape := ⟨2, ![5000000, 1]⟩
abbrev S2x80000000 : Shape := ⟨2, ![2, 80000000]⟩
abbrev S1x1 : Shape := ⟨2, ![1, 1]⟩
abbrev S1 : Shape := ⟨1, ![1]⟩
abbrev S2x50 : Shape := ⟨2, ![2, 50]⟩
abbrev S2 : Shape := ⟨1, ![2]⟩
abbrev S5000000 : Shape := ⟨1, ![5000000]⟩
abbrev S1x80000000 : Shape := ⟨2, ![1, 80000000]⟩
abbrev S80000000 : Shape := ⟨1, ![80000000]⟩
abbrev S85000000 : Shape := ⟨1, ![85000000]⟩
abbrev S_ : Shape := ⟨0, ![]⟩
abbrev S85000000x1 : Shape := ⟨2, ![85000000, 1]⟩
abbrev S5242880 : Shape := ⟨1, ![5242880]⟩
abbrev S40960x128 : Shape := ⟨2, ![40960, 128]⟩
abbrev S4096x128 : Shape := ⟨2, ![4096, 128]⟩
abbrev S85983232 : Shape := ⟨1, ![85983232]⟩
abbrev S671744x128 : Shape := ⟨2, ![671744, 128]⟩
abbrev S8192x128 : Shape := ⟨2, ![8192, 128]⟩
abbrev S100000x50 : Shape := ⟨2, ![100000, 50]⟩
abbrev S50x2 : Shape := ⟨2, ![50, 2]⟩
abbrev S1x2 : Shape := ⟨2, ![1, 2]⟩
abbrev S100000x2 : Shape := ⟨2, ![100000, 2]⟩
abbrev S10000x50 : Shape := ⟨2, ![10000, 50]⟩
abbrev S10000x2 : Shape := ⟨2, ![10000, 2]⟩

abbrev nBuf : Space → Nat
  | .hbm => 85
  | .vmem => 24
  | .smem => 0
  | _ => 0

abbrev bufTy : (tb : Table) → Fin (tcTables nBuf tb) → BufTy
  | .hbm, ⟨0, _⟩ => ⟨S5000000x1, .f32⟩
  | .hbm, ⟨1, _⟩ => ⟨S2x80000000, .i32⟩
  | .hbm, ⟨2, _⟩ => ⟨S1x1, .f32⟩
  | .hbm, ⟨3, _⟩ => ⟨S1, .f32⟩
  | .hbm, ⟨4, _⟩ => ⟨S2x50, .f32⟩
  | .hbm, ⟨5, _⟩ => ⟨S2, .f32⟩
  | .hbm, ⟨6, _⟩ => ⟨S5000000, .i32⟩
  | .hbm, ⟨7, _⟩ => ⟨S1x80000000, .i32⟩
  | .hbm, ⟨8, _⟩ => ⟨S80000000, .i32⟩
  | .hbm, ⟨9, _⟩ => ⟨S85000000, .i32⟩
  | .hbm, ⟨10, _⟩ => ⟨S1x80000000, .i32⟩
  | .hbm, ⟨11, _⟩ => ⟨S80000000, .i32⟩
  | .hbm, ⟨12, _⟩ => ⟨S85000000, .i32⟩
  | .hbm, ⟨13, _⟩ => ⟨S_, .f32⟩
  | .hbm, ⟨14, _⟩ => ⟨S85000000, .f32⟩
  | .hbm, ⟨15, _⟩ => ⟨S_, .f32⟩
  | .hbm, ⟨16, _⟩ => ⟨S5000000, .f32⟩
  | .hbm, ⟨17, _⟩ => ⟨S85000000x1, .i32⟩
  | .hbm, ⟨18, _⟩ => ⟨S5000000, .f32⟩
  | .hbm, ⟨19, _⟩ => ⟨S5000000, .f32⟩
  | .hbm, ⟨20, _⟩ => ⟨S_, .i32⟩
  | .hbm, ⟨21, _⟩ => ⟨S_, .f32⟩
  | .hbm, ⟨22, _⟩ => ⟨S5242880, .f32⟩
  | .hbm, ⟨23, _⟩ => ⟨S_, .i32⟩
  | .hbm, ⟨24, _⟩ => ⟨S_, .f32⟩
  | .hbm, ⟨25, _⟩ => ⟨S5242880, .f32⟩
  | .hbm, ⟨26, _⟩ => ⟨S40960x128, .f32⟩
  | .hbm, ⟨27, _⟩ => ⟨S40960x128, .f32⟩
  | .hbm, ⟨28, _⟩ => ⟨S40960x128, .f32⟩
  | .hbm, ⟨29, _⟩ => ⟨S40960x128, .f32⟩
  | .hbm, ⟨30, _⟩ => ⟨S5242880, .f32⟩
  | .hbm, ⟨31, _⟩ => ⟨S5000000, .f32⟩
  | .hbm, ⟨32, _⟩ => ⟨S5242880, .f32⟩
  | .hbm, ⟨33, _⟩ => ⟨S5000000, .f32⟩
  | .hbm, ⟨34, _⟩ => ⟨S_, .i32⟩
  | .hbm, ⟨35, _⟩ => ⟨S85000000, .i32⟩
  | .hbm, ⟨36, _⟩ => ⟨S85000000, .i1⟩
  | .hbm, ⟨37, _⟩ => ⟨S_, .i32⟩
  | .hbm, ⟨38, _⟩ => ⟨S85000000, .i32⟩
  | .hbm, ⟨39, _⟩ => ⟨S85000000, .i32⟩
  | .hbm, ⟨40, _⟩ => ⟨S85000000, .i32⟩
  | .hbm, ⟨41, _⟩ => ⟨S85000000x1, .i32⟩
  | .hbm, ⟨42, _⟩ => ⟨S85000000, .f32⟩
  | .hbm, ⟨43, _⟩ => ⟨S_, .i32⟩
  | .hbm, ⟨44, _⟩ => ⟨S85000000, .i32⟩
  | .hbm, ⟨45, _⟩ => ⟨S85000000, .i1⟩
  | .hbm, ⟨46, _⟩ => ⟨S_, .i32⟩
  | .hbm, ⟨47, _⟩ => ⟨S85000000, .i32⟩
  | .hbm, ⟨48, _⟩ => ⟨S85000000, .i32⟩
  | .hbm, ⟨49, _⟩ => ⟨S85000000, .i32⟩
  | .hbm, ⟨50, _⟩ => ⟨S85000000x1, .i32⟩
  | .hbm, ⟨51, _⟩ => ⟨S85000000, .f32⟩
  | .hbm, ⟨52, _⟩ => ⟨S_, .i32⟩
  | .hbm, ⟨53, _⟩ => ⟨S85000000, .i32⟩
  | .hbm, ⟨54, _⟩ => ⟨S85000000, .i1⟩
  | .hbm, ⟨55, _⟩ => ⟨S_, .i32⟩
  | .hbm, ⟨56, _⟩ => ⟨S85000000, .i32⟩
  | .hbm, ⟨57, _⟩ => ⟨S85000000, .i32⟩
  | .hbm, ⟨58, _⟩ => ⟨S85000000, .i32⟩
  | .hbm, ⟨59, _⟩ => ⟨S85000000x1, .i32⟩
  | .hbm, ⟨60, _⟩ => ⟨S85000000, .f32⟩
  | .hbm, ⟨61, _⟩ => ⟨S_, .i32⟩
  | .hbm, ⟨62, _⟩ => ⟨S_, .f32⟩
  | .hbm, ⟨63, _⟩ => ⟨S85983232, .f32⟩
  | .hbm, ⟨64, _⟩ => ⟨S_, .i32⟩
  | .hbm, ⟨65, _⟩ => ⟨S_, .f32⟩
  | .hbm, ⟨66, _⟩ => ⟨S85983232, .f32⟩
  | .hbm, ⟨67, _⟩ => ⟨S_, .i32⟩
  | .hbm, ⟨68, _⟩ => ⟨S_, .f32⟩
  | .hbm, ⟨69, _⟩ => ⟨S85983232, .f32⟩
  | .hbm, ⟨70, _⟩ => ⟨S671744x128, .f32⟩
  | .hbm, ⟨71, _⟩ => ⟨S671744x128, .f32⟩
  | .hbm, ⟨72, _⟩ => ⟨S671744x128, .f32⟩
  | .hbm, ⟨73, _⟩ => ⟨S671744x128, .f32⟩
  | .hbm, ⟨74, _⟩ => ⟨S85983232, .f32⟩
  | .hbm, ⟨75, _⟩ => ⟨S85000000, .f32⟩
  | .hbm, ⟨76, _⟩ => ⟨S_, .f32⟩
  | .hbm, ⟨77, _⟩ => ⟨S5000000, .f32⟩
  | .hbm, ⟨78, _⟩ => ⟨S85000000x1, .i32⟩
  | .hbm, ⟨79, _⟩ => ⟨S5000000, .f32⟩
  | .hbm, ⟨80, _⟩ => ⟨S100000x50, .f32⟩
  | .hbm, ⟨81, _⟩ => ⟨S1x1, .f32⟩
  | .hbm, ⟨82, _⟩ => ⟨S50x2, .f32⟩
  | .hbm, ⟨83, _⟩ => ⟨S1x2, .f32⟩
  | .hbm, ⟨84, _⟩ => ⟨S100000x2, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S10000x50, .f32⟩
  | .local _ .vmem, ⟨18, _⟩ => ⟨S10000x50, .f32⟩
  | .local _ .vmem, ⟨19, _⟩ => ⟨S1x1, .f32⟩
  | .local _ .vmem, ⟨20, _⟩ => ⟨S50x2, .f32⟩
  | .local _ .vmem, ⟨21, _⟩ => ⟨S1x2, .f32⟩
  | .local _ .vmem, ⟨22, _⟩ => ⟨S10000x2, .f32⟩
  | .local _ .vmem, ⟨23, _⟩ => ⟨S10000x2, .f32⟩
  | _, _ => ⟨S5000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_c_1 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_call2_v0 : Ref sig .tc := ⟨.hbm, 62, rfl⟩
abbrev main_v42 : Ref sig .tc := ⟨.hbm, 63, rfl⟩
abbrev main_c_9 : Ref sig .tc := ⟨.hbm, 64, rfl⟩
abbrev main_call3_v0 : Ref sig .tc := ⟨.hbm, 65, rfl⟩
abbrev main_v43 : Ref sig .tc := ⟨.hbm, 66, rfl⟩
abbrev main_c_10 : Ref sig .tc := ⟨.hbm, 67, rfl⟩
abbrev main_call4_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![82], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x50 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S50x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x80000000_S1x80000000_0_0 : S2x80000000.Slices ![0, 0] S1x80000000
  shapeCasts_S1x80000000_S80000000 : S1x80000000.ShapeCasts S80000000
  concatenates_S80000000_S5000000_S85000000_d0 : Shape.Concatenates [S80000000, S5000000] S85000000 0
  slices_S2x80000000_S1x80000000_1_0 : S2x80000000.Slices ![1, 0] S1x80000000
  bcast_S_S85000000 : S_.BroadcastsInDim S85000000 (![] : Fin 0 → Fin S85000000.rank)
  bcast_S_S5000000 : S_.BroadcastsInDim S5000000 (![] : Fin 0 → Fin S5000000.rank)
  bcast_S85000000_S85000000x1_0 : S85000000.BroadcastsInDim S85000000x1 (![0] : Fin 1 → Fin S85000000x1.rank)
  shapeCasts_S5000000x1_S5000000 : S5000000x1.ShapeCasts S5000000
  pads_S5000000_S5242880_02428800 : S5000000.Pads (![0] : Fin 1 → Nat) ![242880] ![0] S5242880
  h_S_ : 0 < S_.numel
  shapeCasts_S5242880_S40960x128 : S5242880.ShapeCasts S40960x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S40960x128_S5242880 : S40960x128.ShapeCasts S5242880
  slices_S5242880_S5000000_0 : S5242880.Slices ![0] S5000000
  pads_S85000000_S85983232_09832320 : S85000000.Pads (![0] : Fin 1 → Nat) ![983232] ![0] S85983232
  shapeCasts_S85983232_S671744x128 : S85983232.ShapeCasts S671744x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S671744x128_S85983232 : S671744x128.ShapeCasts S85983232
  slices_S85983232_S85000000_0 : S85983232.Slices ![0] S85000000
  shapeCasts_S5000000_S100000x50 : S5000000.ShapeCasts S100000x50
  shapeCasts_S1_S1x1 : S1.ShapeCasts S1x1
  transposes_S2x50_S50x2_1_0 : S2x50.Transposes [1, 0] S50x2
  shapeCasts_S2_S1x2 : S2.ShapeCasts S1x2
  inb_S10000x50_S10000x50_0_0 : ∀ a, (![0, 0] : Fin 2 → Nat) a + S10000x50.size a ≤ S10000x50.size a
  h_S10000x50 : 0 < S10000x50.numel
  shapeCasts_S10000x50_S10000x50 : S10000x50.ShapeCasts S10000x50
  inb_S50x2_S50x2_0_0 : ∀ a, (![0, 0] : Fin 2 → Nat) a + S50x2.size a ≤ S50x2.size a
  h_S50x2 : 0 < S50x2.numel
  shapeCasts_S50x2_S50x2 : S50x2.ShapeCasts S50x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S5000000_S85000000x1_S85000000_n_0_0_1_wf : ScatterDims.WF S5000000 S85000000x1 S85000000 [] [0] [0] 1
  gather_S5000000_S85000000x1_S85000000_n_0_n_n_0_1_1_wf : GatherDims.WF S5000000 S85000000x1 S85000000 [] [0] [] [0] [] 1 ![1]
  dot_S10000x50_S50x2_S10000x2_1_0_0_1_n_n_wf : DotDims.WF S10000x50 S50x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S40960x128.size a
  hwx0_0 : ∀ i : grid0.Coords, EltTy.bits .f32 = 32 ∨ (Rect.block (s := S40960x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S40960x128.size a
  hwx0_1 : ∀ i : grid0.Coords, EltTy.bits .f32 = 32 ∨ (Rect.block (s := S40960x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S40960x128.size a
  hwx0_3 : ∀ i : grid0.Coords, EltTy.bits .f32 = 32 ∨ (Rect.block (s := S40960x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S40960x128.size a
  hwx0_4 : ∀ i : grid0.Coords, EltTy.bits .f32 = 32 ∨ (Rect.block (s := S40960x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S671744x128.size a
  hwx1_0 : ∀ i : grid1.Coords, EltTy.bits .f32 = 32 ∨ (Rect.block (s := S671744x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S671744x128.size a
  hwx1_1 : ∀ i : grid1.Coords, EltTy.bits .f32 = 32 ∨ (Rect.block (s := S671744x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S671744x128.size a
  hwx1_2 : ∀ i : grid1.Coords, EltTy.bits .f32 = 32 ∨ (Rect.block (s := S671744x128) S8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S671744x128.size a
  hwx1_3 : ∀ i : grid1.Coords, EltTy.bits .f32 = 32 ∨ (Rect.block (s := S671744x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x50.size a ≤ S100000x50.size a
  hwx2_0 : ∀ i : grid2.Coords, EltTy.bits .f32 = 32 ∨ (Rect.block (s := S100000x50) S10000x50.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50x2.size a ≤ S50x2.size a
  hwx2_2 : ∀ i : grid2.Coords, EltTy.bits .f32 = 32 ∨ (Rect.block (s := S50x2) S50x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x2.size a ≤ S100000x2.size a
  hwx2_4 : ∀ i : grid2.Coords, EltTy.bits .f32 = 32 ∨ (Rect.block (s := S100000x2) S10000x2.size (cc2_transform_4 i) (hinb2_4 i)).WholeWords (EltTy.packing .f32)

variable [Facts₀]

def scatter_S5000000_S85000000x1_S85000000_n_0_0_1 : ScatterDims S5000000 S85000000x1 S85000000 where
  updateWindowDims := []
  insertedWindowDims := [0]
  scatterDimsToOperandDims := [0]
  indexVectorDim := 1
  wf := scatter_S5000000_S85000000x1_S85000000_n_0_0_1_wf
def gather_S5000000_S85000000x1_S85000000_n_0_n_n_0_1_1 : GatherDims S5000000 S85000000x1 S85000000 where
  offsetDims := []
  collapsedSliceDims := [0]
  operandBatchingDims := []
  startIndicesBatchingDims := []
  startIndexMap := [0]
  indexVectorDim := 1
  sliceSizes := ![1]
  wf := gather_S5000000_S85000000x1_S85000000_n_0_n_n_0_1_1_wf
def dot_S10000x50_S50x2_S10000x2_1_0_0_1_n_n : DotDims S10000x50 S50x2 S10000x2 where
  lhsContracting := [1]
  rhsContracting := [0]
  lhsNonContracting := [0]
  rhsNonContracting := [1]
  lhsBatch := []
  rhsBatch := []
  wf := dot_S10000x50_S50x2_S10000x2_1_0_0_1_n_n_wf

abbrev win0_0 : Pipeline.Window sig grid0 :=
  Pipeline.Window.ofSpec (Memref.whole main_v14) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8192x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S10000x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S50x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S10000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S5000000x1 : Shape := ⟨2, ![5000000, 1]⟩
abbrev S2x80000000 : Shape := ⟨2, ![2, 80000000]⟩
abbrev S1x1 : Shape := ⟨2, ![1, 1]⟩
abbrev S1 : Shape := ⟨1, ![1]⟩
abbrev S2x50 : Shape := ⟨2, ![2, 50]⟩
abbrev S2 : Shape := ⟨1, ![2]⟩
abbrev S5000000 : Shape := ⟨1, ![5000000]⟩
abbrev S1x80000000 : Shape := ⟨2, ![1, 80000000]⟩
abbrev S80000000 : Shape := ⟨1, ![80000000]⟩
abbrev S85000000 : Shape := ⟨1, ![85000000]⟩
abbrev S_ : Shape := ⟨0, ![]⟩
abbrev S85000000x1 : Shape := ⟨2, ![85000000, 1]⟩
abbrev S100000x50 : Shape := ⟨2, ![100000, 50]⟩
abbrev S50x2 : Shape := ⟨2, ![50, 2]⟩
abbrev S100000x2 : Shape := ⟨2, ![100000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S5000000x1, .f32⟩
  | .hbm, ⟨1, _⟩ => ⟨S2x80000000, .i32⟩
  | .hbm, ⟨2, _⟩ => ⟨S1x1, .f32⟩
  | .hbm, ⟨3, _⟩ => ⟨S1, .f32⟩
  | .hbm, ⟨4, _⟩ => ⟨S2x50, .f32⟩
  | .hbm, ⟨5, _⟩ => ⟨S2, .f32⟩
  | .hbm, ⟨6, _⟩ => ⟨S5000000x1, .f32⟩
  | .hbm, ⟨7, _⟩ => ⟨S5000000, .i32⟩
  | .hbm, ⟨8, _⟩ => ⟨S1x80000000, .i32⟩
  | .hbm, ⟨9, _⟩ => ⟨S80000000, .i32⟩
  | .hbm, ⟨10, _⟩ => ⟨S85000000, .i32⟩
  | .hbm, ⟨11, _⟩ => ⟨S1x80000000, .i32⟩
  | .hbm, ⟨12, _⟩ => ⟨S80000000, .i32⟩
  | .hbm, ⟨13, _⟩ => ⟨S85000000, .i32⟩
  | .hbm, ⟨14, _⟩ => ⟨S_, .f32⟩
  | .hbm, ⟨15, _⟩ => ⟨S85000000, .f32⟩
  | .hbm, ⟨16, _⟩ => ⟨S_, .f32⟩
  | .hbm, ⟨17, _⟩ => ⟨S5000000, .f32⟩
  | .hbm, ⟨18, _⟩ => ⟨S85000000x1, .i32⟩
  | .hbm, ⟨19, _⟩ => ⟨S5000000, .f32⟩
  | .hbm, ⟨20, _⟩ => ⟨S_, .f32⟩
  | .hbm, ⟨21, _⟩ => ⟨S5000000, .f32⟩
  | .hbm, ⟨22, _⟩ => ⟨S5000000, .i1⟩
  | .hbm, ⟨23, _⟩ => ⟨S_, .f32⟩
  | .hbm, ⟨24, _⟩ => ⟨S5000000, .f32⟩
  | .hbm, ⟨25, _⟩ => ⟨S5000000, .f32⟩
  | .hbm, ⟨26, _⟩ => ⟨S5000000, .f32⟩
  | .hbm, ⟨27, _⟩ => ⟨S_, .f32⟩
  | .hbm, ⟨28, _⟩ => ⟨S_, .f32⟩
  | .hbm, ⟨29, _⟩ => ⟨S5000000, .f32⟩
  | .hbm, ⟨30, _⟩ => ⟨S5000000, .f32⟩
  | .hbm, ⟨31, _⟩ => ⟨S_, .i32⟩
  | .hbm, ⟨32, _⟩ => ⟨S85000000, .i32⟩
  | .hbm, ⟨33, _⟩ => ⟨S85000000, .i1⟩
  | .hbm, ⟨34, _⟩ => ⟨S_, .i32⟩
  | .hbm, ⟨35, _⟩ => ⟨S85000000, .i32⟩
  | .hbm, ⟨36, _⟩ => ⟨S85000000, .i32⟩
  | .hbm, ⟨37, _⟩ => ⟨S85000000, .i32⟩
  | .hbm, ⟨38, _⟩ => ⟨S85000000x1, .i32⟩
  | .hbm, ⟨39, _⟩ => ⟨S85000000, .f32⟩
  | .hbm, ⟨40, _⟩ => ⟨S_, .i32⟩
  | .hbm, ⟨41, _⟩ => ⟨S85000000, .i32⟩
  | .hbm, ⟨42, _⟩ => ⟨S85000000, .i1⟩
  | .hbm, ⟨43, _⟩ => ⟨S_, .i32⟩
  | .hbm, ⟨44, _⟩ => ⟨S85000000, .i32⟩
  | .hbm, ⟨45, _⟩ => ⟨S85000000, .i32⟩
  | .hbm, ⟨46, _⟩ => ⟨S85000000, .i32⟩
  | .hbm, ⟨47, _⟩ => ⟨S85000000x1, .i32⟩
  | .hbm, ⟨48, _⟩ => ⟨S85000000, .f32⟩
  | .hbm, ⟨49, _⟩ => ⟨S85000000, .f32⟩
  | .hbm, ⟨50, _⟩ => ⟨S_, .i32⟩
  | .hbm, ⟨51, _⟩ => ⟨S85000000, .i32⟩
  | .hbm, ⟨52, _⟩ => ⟨S85000000, .i1⟩
  | .hbm, ⟨53, _⟩ => ⟨S_, .i32⟩
  | .hbm, ⟨54, _⟩ => ⟨S85000000, .i32⟩
  | .hbm, ⟨55, _⟩ => ⟨S85000000, .i32⟩
  | .hbm, ⟨56, _⟩ => ⟨S85000000, .i32⟩
  | .hbm, ⟨57, _⟩ => ⟨S85000000x1, .i32⟩
  | .hbm, ⟨58, _⟩ => ⟨S85000000x1, .f32⟩
  | .hbm, ⟨59, _⟩ => ⟨S85000000x1, .f32⟩
  | .hbm, ⟨60, _⟩ => ⟨S85000000x1, .f32⟩
  | .hbm, ⟨61, _⟩ => ⟨S_, .f32⟩
  | .hbm, ⟨62, _⟩ => ⟨S5000000x1, .f32⟩
  | .hbm, ⟨63, _⟩ => ⟨S85000000x1, .i32⟩
  | .hbm, ⟨64, _⟩ => ⟨S5000000x1, .f32⟩
  | .hbm, ⟨65, _⟩ => ⟨S1x1, .f32⟩
  | .hbm, ⟨66, _⟩ => ⟨S5000000x1, .f32⟩
  | .hbm, ⟨67, _⟩ => ⟨S5000000x1, .f32⟩
  | .hbm, ⟨68, _⟩ => ⟨S100000x50, .f32⟩
  | .hbm, ⟨69, _⟩ => ⟨S50x2, .f32⟩
  | .hbm, ⟨70, _⟩ => ⟨S100000x2, .f32⟩
  | .hbm, ⟨71, _⟩ => ⟨S1x2, .f32⟩
  | .hbm, ⟨72, _⟩ => ⟨S100000x2, .f32⟩
  | .hbm, ⟨73, _⟩ => ⟨S100000x2, .f32⟩
  | _, _ => ⟨S5000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x80000000_S1x80000000_0_0 : S2x80000000.Slices ![0, 0] S1x80000000
  shapeCasts_S1x80000000_S80000000 : S1x80000000.ShapeCasts S80000000
  concatenates_S80000000_S5000000_S85000000_d0 : Shape.Concatenates [S80000000, S5000000] S85000000 0
  slices_S2x80000000_S1x80000000_1_0 : S2x80000000.Slices ![1, 0] S1x80000000
  bcast_S_S85000000 : S_.BroadcastsInDim S85000000 (![] : Fin 0 → Fin S85000000.rank)
  bcast_S_S5000000 : S_.BroadcastsInDim S5000000 (![] : Fin 0 → Fin S5000000.rank)
  bcast_S85000000_S85000000x1_0 : S85000000.BroadcastsInDim S85000000x1 (![0] : Fin 1 → Fin S85000000x1.rank)
  bcast_S_S5000000x1 : S_.BroadcastsInDim S5000000x1 (![] : Fin 0 → Fin S5000000x1.rank)
  bcast_S1_S1x1_1 : S1.BroadcastsInDim S1x1 (![1] : Fin 1 → Fin S1x1.rank)
  bcast_S1x1_S5000000x1_0_1 : S1x1.BroadcastsInDim S5000000x1 (![0, 1] : Fin 2 → Fin S5000000x1.rank)
  shapeCasts_S5000000x1_S100000x50 : S5000000x1.ShapeCasts S100000x50
  transposes_S2x50_S50x2_1_0 : S2x50.Transposes [1, 0] S50x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S5000000x1_S1x1_S5000000x1_1_0_0_1_n_n_wf : DotDims.WF S5000000x1 S1x1 S5000000x1 [1] [0] [0] [1] [] []
  scatter_S5000000_S85000000x1_S85000000_n_0_0_1_wf : ScatterDims.WF S5000000 S85000000x1 S85000000 [] [0] [0] 1
  gather_S5000000_S85000000x1_S85000000_n_0_n_n_0_1_1_wf : GatherDims.WF S5000000 S85000000x1 S85000000 [] [0] [] [0] [] 1 ![1]
  gather_S5000000x1_S85000000x1_S85000000x1_1_0_n_n_0_1_11_wf : GatherDims.WF S5000000x1 S85000000x1 S85000000x1 [1] [0] [] [0] [] 1 ![1, 1]
  scatter_S5000000x1_S85000000x1_S85000000x1_1_0_0_1_wf : ScatterDims.WF S5000000x1 S85000000x1 S85000000x1 [1] [0] [0] 1
  dot_S100000x50_S50x2_S100000x2_1_0_0_1_n_n_wf : DotDims.WF S100000x50 S50x2 S100000x2 [1] [0] [0] [1] [] []

variable [Facts₀]

def dot_S5000000x1_S1x1_S5000000x1_1_0_0_1_n_n : DotDims S5000000x1 S1x1 S5000000x1 where
  lhsContracting := [1]
  rhsContracting := [0]
  lhsNonContracting := [0]
  rhsNonContracting := [1]
  lhsBatch := []
  rhsBatch := []
  wf := dot_S5000000x1_S1x1_S5000000x1_1_0_0_1_n_n_wf
def scatter_S5000000_S85000000x1_S85000000_n_0_0_1 : ScatterDims S5000000 S85000000x1 S85000000 where
  updateWindowDims := []
  insertedWindowDims := [0]
  scatterDimsToOperandDims := [0]
  indexVectorDim := 1
  wf := scatter_S5000000_S85000000x1_S85000000_n_0_0_1_wf
def gather_S5000000_S85000000x1_S85000000_n_0_n_n_0_1_1 : GatherDims S5000000 S85000000x1 S85000000 where
  offsetDims := []
  collapsedSliceDims := [0]
  operandBatchingDims := []
  startIndicesBatchingDims := []
  startIndexMap := [0]
  indexVectorDim := 1
  sliceSizes := ![1]
  wf := gather_S5000000_S85000000x1_S85000000_n_0_n_n_0_1_1_wf
def gather_S5000000x1_S85000000x1_S85000000x1_1_0_n_n_0_1_11 : GatherDims S5000000x1 S85000000x1 S85000000x1 where
  offsetDims := [1]
  collapsedSliceDims := [0]
  operandBatchingDims := []
  startIndicesBatchingDims := []
  startIndexMap := [0]
  indexVectorDim := 1
  sliceSizes := ![1, 1]
  wf := gather_S5000000x1_S85000000x1_S85000000x1_1_0_n_n_0_1_11_wf
def scatter_S5000000x1_S85000000x1_S85000000x1_1_0_0_1 : ScatterDims S5000000x1 S85000000x1 S85000000x1 where
  updateWindowDims := [1]
  insertedWindowDims := [0]
  scatterDimsToOperandDims := [0]
  indexVectorDim := 1
  wf := scatter_S5000000x1_S85000000x1_S85000000x1_1_0_0_1_wf
def dot_S100000x50_S50x2_S100000x2_1_0_0_1_n_n : DotDims S100000x50 S50x2 S100000x2 where
  lhsContracting := [1]
  rhsContracting := [0]
  lhsNonContracting := [0]
  rhsNonContracting := [1]
  lhsBatch := []
  rhsBatch := []
  wf := dot_S100000x50_S50x2_S100000x2_1_0_0_1_n_n_wf

class Facts : Prop extends Facts₀ where

variable [Facts]
-- ==== Proof.RefRun.lean ====
/-
  The reference program's run: every weakly fair execution of the reference ends with its result buffer at the composed
  term of its host operations applied to the arguments, and its frame is that run with the result dropped.
-/
import proofs.«153830_j48180943127420_1_alg».proof.Defs
import proofs.«153830_j48180943127420_1_alg».proof.Proof.RefRunGen
import proofs.«153830_j48180943127420_1_alg».proof.Proof.RefReadGen

noncomputable section

namespace Cert.Proof.RefRun

open Idealize.ShloMosaic Idealize.SL.Sem

/-- The reference terminates without a fault and leaves its arguments as launched: its run with the result forgotten. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefRun

end
-- ==== Proof.KChain.lean ====
/-
  The kernel program's buffers at each boundary of its run, read back through its host stretches and regions.

  @main is sixteen segments: host stretches around three kernel regions. The contents of the TensorCore's buffers after each
  segment are a fold from the launch memory. Here each buffer that a later segment reads is read back through that fold:
  a buffer a stretch writes is the stretch's operation applied to its operands' contents before the stretch; a buffer it
  does not write is unchanged; a region changes only its own arrays, each output array to what its write-backs leave.
  The terms are kept folded: what each stage means at an index is read elsewhere.
-/
import proofs.«153830_j48180943127420_1_alg».proof.Proof.Gen.KernelIdeal.Frame
import Idealize.ShloMosaic.Lib.StableHlo.Run
import Idealize.ShloMosaic.Lib.ValueIdx

set_option maxRecDepth 16384

noncomputable section

namespace Cert.KernelIdeal.KChain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- A buffer none of a stretch's operations writes holds after the stretch what it held before it. -/
local macro "not_written " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments as launched -/

abbrev feats (c : Dev nD) : S5000000x1.Idx → EReal := m ((c : Thread nD τ).loc main_arg0)
abbrev edges (c : Dev nD) : IVec S2x80000000 32 := m ((c : Thread nD τ).loc main_arg1)
abbrev argW (c : Dev nD) : S1x1.Idx → EReal := m ((c : Thread nD τ).loc main_arg2)
abbrev argB (c : Dev nD) : S1.Idx → EReal := m ((c : Thread nD τ).loc main_arg3)
abbrev argFcW (c : Dev nD) : S2x50.Idx → EReal := m ((c : Thread nD τ).loc main_arg4)
abbrev argFcB (c : Dev nD) : S2.Idx → EReal := m ((c : Thread nD τ).loc main_arg5)

/-! ## The host operations, named -/

/-- Row `k` of the edge list with the self loops `0, 1, …, N - 1` appended. -/
def endsK (k : Fin 2) (e : IVec S2x80000000 32) : IVec S85000000 32 :=
  match k with
  | ⟨0, _⟩ => concatenate S85000000 0 [⟨S80000000, shapeCast S80000000 (extractStridedSlice S1x80000000 ![0, 0] e slices_S2x80000000_S1x80000000_0_0) shapeCasts_S1x80000000_S80000000⟩, ⟨S5000000, iotaInDim S5000000 32 0⟩] concatenates_S80000000_S5000000_S85000000_d0
  | ⟨1, _⟩ => concatenate S85000000 0 [⟨S80000000, shapeCast S80000000 (extractStridedSlice S1x80000000 ![1, 0] e slices_S2x80000000_S1x80000000_1_0) shapeCasts_S1x80000000_S80000000⟩, ⟨S5000000, iotaInDim S5000000 32 0⟩] concatenates_S80000000_S5000000_S85000000_d0

/-- A vector of indices as the one-column table a gather or a scatter reads. -/
abbrev asCol (r : IVec S85000000 32) : IVec S85000000x1 32 := broadcastInDim S85000000x1 ![0] bcast_S85000000_S85000000x1_0 r

/-- A negative index counted from the end: `N` added to it. -/
def wrapN (r : IVec S85000000 32) : IVec S85000000 32 :=
  select (cmpi .slt r (broadcastInDim S85000000 ![] bcast_S_S85000000 (constantI S_ 32 0#32)))
    (addi r (broadcastInDim S85000000 ![] bcast_S_S85000000 (constantI S_ 32 5000000#32))) r

/-- The degree: ones added up at the targets. -/
def degK (e : IVec S2x80000000 32) : S5000000.Idx → EReal :=
  Host.scatterAdd scatter_S5000000_S85000000x1_S85000000_n_0_0_1
    (broadcastInDim S5000000 ![] bcast_S_S5000000 (constant (F := Ideal) S_ .f32 0x00000000#32)) (asCol (endsK 1 e))
    (broadcastInDim S85000000 ![] bcast_S_S85000000 (constant (F := Ideal) S_ .f32 0x3F800000#32))

/-- The filler of the pads: the integer zero as a float. -/
abbrev fill0 : S_.Idx → EReal := sitofp (F := Ideal) .f32 (constantI S_ 32 0#32)

/-- A node array padded to a whole number of 4096×128 blocks and laid out in rows of 128. -/
abbrev tileN (a : S5000000.Idx → EReal) : S40960x128.Idx → EReal :=
  shapeCast S40960x128 (pad S5242880 ![0] ![242880] ![0] a fill0 pads_S5000000_S5242880_02428800 h_S_) shapeCasts_S5242880_S40960x128
/-- A node array's rows of 128 laid flat again and cut back to the nodes. -/
abbrev untileN (b : S40960x128.Idx → EReal) : S5000000.Idx → EReal :=
  extractStridedSlice S5000000 ![0] (shapeCast S5242880 b shapeCasts_S40960x128_S5242880) slices_S5242880_S5000000_0
/-- An edge array padded to a whole number of 8192×128 blocks and laid out in rows of 128. -/
abbrev tileE (a : S85000000.Idx → EReal) : S671744x128.Idx → EReal :=
  shapeCast S671744x128 (pad S85983232 ![0] ![983232] ![0] a fill0 pads_S85000000_S85983232_09832320 h_S_) shapeCasts_S85983232_S671744x128
/-- An edge array's rows of 128 laid flat again and cut back to the edges. -/
abbrev untileE (b : S671744x128.Idx → EReal) : S85000000.Idx → EReal :=
  extractStridedSlice S85000000 ![0] (shapeCast S85983232 b shapeCasts_S671744x128_S85983232) slices_S85983232_S85000000_0

/-- A table read at a vector of indices (negative ones counted from the end, then clamped into the table). -/
abbrev takeK (t : S5000000.Idx → EReal) (r : IVec S85000000 32) : S85000000.Idx → EReal :=
  Host.gather gather_S5000000_S85000000x1_S85000000_n_0_n_n_0_1_1 t (asCol (wrapN r))

/-! ## Each stretch over an arbitrary valuation

What a stretch leaves in a buffer it writes, from the contents `V` its operands had before the stretch. -/

section Stretches

variable (V : Valuation τ sig (Elt Ideal))

theorem st0_row :
    StableHlo.after hostOps0 V (Proc.devRef .tc main_v3) = endsK 0 (V (Proc.devRef .tc main_arg1)) := by
  after_results
  try simp only [TRef.ofBuf, TRef.toBuf, cast_eq]
  try rfl

theorem st0_col :
    StableHlo.after hostOps0 V (Proc.devRef .tc main_v6) = endsK 1 (V (Proc.devRef .tc main_arg1)) := by
  after_results
  try simp only [TRef.ofBuf, TRef.toBuf, cast_eq]
  try rfl

theorem st0_deg :
    StableHlo.after hostOps0 V (Proc.devRef .tc main_v10) = degK (V (Proc.devRef .tc main_arg1)) := by
  after_results
  try simp only [TRef.ofBuf, TRef.toBuf, cast_eq]
  try rfl

theorem st0_xflat :
    StableHlo.after hostOps0 V (Proc.devRef .tc main_v11) = shapeCast S5000000 (V (Proc.devRef .tc main_arg0)) shapeCasts_S5000000x1_S5000000 := by
  after_results
  try simp only [TRef.ofBuf, TRef.toBuf, cast_eq]
  try rfl

theorem st0_c :
    StableHlo.after hostOps0 V (Proc.devRef .tc main_c) = constantI S_ 32 0#32 := by
  after_results
  try simp only [TRef.ofBuf, TRef.toBuf, cast_eq]
  try rfl

theorem st0_1_pad (hc : V (Proc.devRef .tc main_c) = constantI S_ 32 0#32) :
    StableHlo.after hostOps0_1 V (Proc.devRef .tc main_v12) = pad S5242880 ![0] ![242880] ![0] (V (Proc.devRef .tc main_v11)) fill0 pads_S5000000_S5242880_02428800 h_S_ := by
  after_results
  try simp only [TRef.ofBuf, TRef.toBuf, cast_eq]
  rw [hc]
  try rfl

theorem st0_2_c :
    StableHlo.after hostOps0_2 V (Proc.devRef .tc main_c_1) = constantI S_ 32 0#32 := by
  after_results
  try simp only [TRef.ofBuf, TRef.toBuf, cast_eq]
  try rfl

theorem st0_3_pad (hc : V (Proc.devRef .tc main_c_1) = constantI S_ 32 0#32) :
    StableHlo.after hostOps0_3 V (Proc.devRef .tc main_v13) = pad S5242880 ![0] ![242880] ![0] (V (Proc.devRef .tc main_v10)) fill0 pads_S5000000_S5242880_02428800 h_S_ := by
  after_results
  try simp only [TRef.ofBuf, TRef.toBuf, cast_eq]
  rw [hc]
  try rfl

theorem st0_4_x :
    StableHlo.after hostOps0_4 V (Proc.devRef .tc main_v14) = shapeCast S40960x128 (V (Proc.devRef .tc main_v12)) shapeCasts_S5242880_S40960x128 := by
  after_results
  try simp only [TRef.ofBuf, TRef.toBuf, cast_eq]
  try rfl

theorem st0_4_deg :
    StableHlo.after hostOps0_4 V (Proc.devRef .tc main_v15) = shapeCast S40960x128 (V (Proc.devRef .tc main_v13)) shapeCasts_S5242880_S40960x128 := by
  after_results
  try simp only [TRef.ofBuf, TRef.toBuf, cast_eq]
  try rfl

set_option maxHeartbeats 4000000 in
theorem st1_xwSrc :
    StableHlo.after hostOps1 V (Proc.devRef .tc main_v41) = takeK (untileN (V (Proc.devRef .tc main_v16_0))) (V (Proc.devRef .tc main_v3)) := by
  after_results_simp
  try simp only [TRef.ofBuf, TRef.toBuf, cast_eq]
  try rfl

set_option maxHeartbeats 4000000 in
theorem st1_disSrc :
    StableHlo.after hostOps1 V (Proc.devRef .tc main_v27) = takeK (untileN (V (Proc.devRef .tc main_v16_1))) (V (Proc.devRef .tc main_v3)) := by
  after_results_simp
  try simp only [TRef.ofBuf, TRef.toBuf, cast_eq]
  try rfl

set_option maxHeartbeats 4000000 in
theorem st1_disDst :
    StableHlo.after hostOps1 V (Proc.devRef .tc main_v34) = takeK (untileN (V (Proc.devRef .tc main_v16_1))) (V (Proc.devRef .tc main_v6)) := by
  after_results_simp
  try simp only [TRef.ofBuf, TRef.toBuf, cast_eq]
  try rfl

set_option maxHeartbeats 4000000 in
theorem st1_c :
    StableHlo.after hostOps1 V (Proc.devRef .tc main_c_8) = constantI S_ 32 0#32 := by
  after_results_simp
  try simp only [TRef.ofBuf, TRef.toBuf, cast_eq]
  try rfl

theorem st1_1_pad (hc : V (Proc.devRef .tc main_c_8) = constantI S_ 32 0#32) :
    StableHlo.after hostOps1_1 V (Proc.devRef .tc main_v42) = pad S85983232 ![0] ![983232] ![0] (V (Proc.devRef .tc main_v41)) fill0 pads_S85000000_S85983232_09832320 h_S_ := by
  after_results
  try simp only [TRef.ofBuf, TRef.toBuf, cast_eq]
  rw [hc]
  try rfl

theorem st1_2_c :
    StableHlo.after hostOps1_2 V (Proc.devRef .tc main_c_9) = constantI S_ 32 0#32 := by
  after_results
  try simp only [TRef.ofBuf, TRef.toBuf, cast_eq]
  try rfl

theorem st1_3_pad (hc : V (Proc.devRef .tc main_c_9) = constantI S_ 32 0#32) :
    StableHlo.after hostOps1_3 V (Proc.devRef .tc main_v43) = pad S85983232 ![0] ![983232] ![0] (V (Proc.devRef .tc main_v27)) fill0 pads_S85000000_S85983232_09832320 h_S_ := by
  after_results
  try simp only [TRef.ofBuf, TRef.toBuf, cast_eq]
  rw [hc]
  try rfl

theorem st1_4_c :
    StableHlo.after hostOps1_4 V (Proc.devRef .tc main_c_10) = constantI S_ 32 0#32 := by
  after_results
  try simp only [TRef.ofBuf, TRef.toBuf, cast_eq]
  try rfl

theorem st1_5_pad (hc : V (Proc.devRef .tc main_c_10) = constantI S_ 32 0#32) :
    StableHlo.after hostOps1_5 V (Proc.devRef .tc main_v44) = pad S85983232 ![0] ![983232] ![0] (V (Proc.devRef .tc main_v34)) fill0 pads_S85000000_S85983232_09832320 h_S_ := by
  after_results
  try simp only [TRef.ofBuf, TRef.toBuf, cast_eq]
  rw [hc]
  try rfl

theorem st1_6_a :
    StableHlo.after hostOps1_6 V (Proc.devRef .tc main_v45) = shapeCast S671744x128 (V (Proc.devRef .tc main_v42)) shapeCasts_S85983232_S671744x128 := by
  after_results
  try simp only [TRef.ofBuf, TRef.toBuf, cast_eq]
  try rfl

theorem st1_6_b :
    StableHlo.after hostOps1_6 V (Proc.devRef .tc main_v46) = shapeCast S671744x128 (V (Proc.devRef .tc main_v43)) shapeCasts_S85983232_S671744x128 := by
  after_results
  try simp only [TRef.ofBuf, TRef.toBuf, cast_eq]
  try rfl

theorem st1_6_c :
    StableHlo.after hostOps1_6 V (Proc.devRef .tc main_v47) = shapeCast S671744x128 (V (Proc.devRef .tc main_v44)) shapeCasts_S85983232_S671744x128 := by
  after_results
  try simp only [TRef.ofBuf, TRef.toBuf, cast_eq]
  try rfl

theorem st2_agg :
    StableHlo.after hostOps2 V (Proc.devRef .tc main_v54) = shapeCast S100000x50 (Host.scatterAdd scatter_S5000000_S85000000x1_S85000000_n_0_0_1
        (broadcastInDim S5000000 ![] bcast_S_S5000000 (constant (F := Ideal) S_ .f32 0x00000000#32))
        (asCol (V (Proc.devRef .tc main_v6))) (untileE (V (Proc.devRef .tc main_v48)))) shapeCasts_S5000000_S100000x50 := by
  after_results
  try simp only [TRef.ofBuf, TRef.toBuf, cast_eq]
  try rfl

theorem st2_b :
    StableHlo.after hostOps2 V (Proc.devRef .tc main_v55) = shapeCast S1x1 (V (Proc.devRef .tc main_arg3)) shapeCasts_S1_S1x1 := by
  after_results
  try simp only [TRef.ofBuf, TRef.toBuf, cast_eq]
  try rfl

theorem st2_fcWT :
    StableHlo.after hostOps2 V (Proc.devRef .tc main_v56) = transpose S50x2 [1, 0] (V (Proc.devRef .tc main_arg4)) transposes_S2x50_S50x2_1_0 := by
  after_results
  try simp only [TRef.ofBuf, TRef.toBuf, cast_eq]
  try rfl

theorem st2_fcB :
    StableHlo.after hostOps2 V (Proc.devRef .tc main_v57) = shapeCast S1x2 (V (Proc.devRef .tc main_arg5)) shapeCasts_S2_S1x2 := by
  after_results
  try simp only [TRef.ofBuf, TRef.toBuf, cast_eq]
  try rfl

end Stretches

/-! ## The boundaries of the run -/

/-- Region 0's first operand: the flat node features, padded and tiled. -/
theorem W5_xTile (c : Dev nD) :
    W5 m ρ c (Proc.devRef .tc main_v14) = tileN (shapeCast S5000000 (feats m c) shapeCasts_S5000000x1_S5000000) := by
  have e5 : W5 m ρ c (Proc.devRef .tc main_v14) = shapeCast S40960x128 (W4 m ρ c (Proc.devRef .tc main_v12)) shapeCasts_S5242880_S40960x128 := st0_4_x (W4 m ρ c)
  have e4 : W4 m ρ c (Proc.devRef .tc main_v12) = W3 m ρ c (Proc.devRef .tc main_v12) := by not_written hostOps0_3
  have e3 : W3 m ρ c (Proc.devRef .tc main_v12) = W2 m ρ c (Proc.devRef .tc main_v12) := by not_written hostOps0_2
  have e2 : W2 m ρ c (Proc.devRef .tc main_v12) = pad S5242880 ![0] ![242880] ![0] (W1 m ρ c (Proc.devRef .tc main_v11)) fill0 pads_S5000000_S5242880_02428800 h_S_ := st0_1_pad (W1 m ρ c) (st0_c (W0 m ρ c))
  have e1 : W1 m ρ c (Proc.devRef .tc main_v11) = shapeCast S5000000 (feats m c) shapeCasts_S5000000x1_S5000000 := st0_xflat (W0 m ρ c)
  rw [e5, e4, e3, e2, e1]

/-- Region 0's second operand: the degree, padded and tiled. -/
theorem W5_degTile (c : Dev nD) : W5 m ρ c (Proc.devRef .tc main_v15) = tileN (degK (edges m c)) := by
  have e5 : W5 m ρ c (Proc.devRef .tc main_v15) = shapeCast S40960x128 (W4 m ρ c (Proc.devRef .tc main_v13)) shapeCasts_S5242880_S40960x128 := st0_4_deg (W4 m ρ c)
  have e4 : W4 m ρ c (Proc.devRef .tc main_v13) = pad S5242880 ![0] ![242880] ![0] (W3 m ρ c (Proc.devRef .tc main_v10)) fill0 pads_S5000000_S5242880_02428800 h_S_ := st0_3_pad (W3 m ρ c) (st0_2_c (W2 m ρ c))
  have d3 : W3 m ρ c (Proc.devRef .tc main_v10) = W2 m ρ c (Proc.devRef .tc main_v10) := by not_written hostOps0_2
  have d2 : W2 m ρ c (Proc.devRef .tc main_v10) = W1 m ρ c (Proc.devRef .tc main_v10) := by not_written hostOps0_1
  have d1 : W1 m ρ c (Proc.devRef .tc main_v10) = degK (edges m c) := st0_deg (W0 m ρ c)
  rw [e5, e4, d3, d2, d1]

/-- Region 0's third operand: the convolution weight, as launched. -/
theorem W5_w (c : Dev nD) : W5 m ρ c (Proc.devRef .tc main_arg2) = argW m c := by
  have e5 : W5 m ρ c (Proc.devRef .tc main_arg2) = W4 m ρ c (Proc.devRef .tc main_arg2) := by not_written hostOps0_4
  have e4 : W4 m ρ c (Proc.devRef .tc main_arg2) = W3 m ρ c (Proc.devRef .tc main_arg2) := by not_written hostOps0_3
  have e3 : W3 m ρ c (Proc.devRef .tc main_arg2) = W2 m ρ c (Proc.devRef .tc main_arg2) := by not_written hostOps0_2
  have e2 : W2 m ρ c (Proc.devRef .tc main_arg2) = W1 m ρ c (Proc.devRef .tc main_arg2) := by not_written hostOps0_1
  have e1 : W1 m ρ c (Proc.devRef .tc main_arg2) = W0 m ρ c (Proc.devRef .tc main_arg2) := by not_written hostOps0
  rw [e5, e4, e3, e2, e1]

/-- The sources and the targets pass the first region and the pads before it unchanged. -/
theorem W6_row (c : Dev nD) : W6 m ρ c (Proc.devRef .tc main_v3) = endsK 0 (edges m c) := by
  have e6 : W6 m ρ c (Proc.devRef .tc main_v3) = W5 m ρ c (Proc.devRef .tc main_v3) := W6_of_ne m ρ c main_v3 (by decide)
  have e5 : W5 m ρ c (Proc.devRef .tc main_v3) = W4 m ρ c (Proc.devRef .tc main_v3) := by not_written hostOps0_4
  have e4 : W4 m ρ c (Proc.devRef .tc main_v3) = W3 m ρ c (Proc.devRef .tc main_v3) := by not_written hostOps0_3
  have e3 : W3 m ρ c (Proc.devRef .tc main_v3) = W2 m ρ c (Proc.devRef .tc main_v3) := by not_written hostOps0_2
  have e2 : W2 m ρ c (Proc.devRef .tc main_v3) = W1 m ρ c (Proc.devRef .tc main_v3) := by not_written hostOps0_1
  have e1 : W1 m ρ c (Proc.devRef .tc main_v3) = endsK 0 (edges m c) := st0_row (W0 m ρ c)
  rw [e6, e5, e4, e3, e2, e1]
theorem W6_col (c : Dev nD) : W6 m ρ c (Proc.devRef .tc main_v6) = endsK 1 (edges m c) := by
  have e6 : W6 m ρ c (Proc.devRef .tc main_v6) = W5 m ρ c (Proc.devRef .tc main_v6) := W6_of_ne m ρ c main_v6 (by decide)
  have e5 : W5 m ρ c (Proc.devRef .tc main_v6) = W4 m ρ c (Proc.devRef .tc main_v6) := by not_written hostOps0_4
  have e4 : W4 m ρ c (Proc.devRef .tc main_v6) = W3 m ρ c (Proc.devRef .tc main_v6) := by not_written hostOps0_3
  have e3 : W3 m ρ c (Proc.devRef .tc main_v6) = W2 m ρ c (Proc.devRef .tc main_v6) := by not_written hostOps0_2
  have e2 : W2 m ρ c (Proc.devRef .tc main_v6) = W1 m ρ c (Proc.devRef .tc main_v6) := by not_written hostOps0_1
  have e1 : W1 m ρ c (Proc.devRef .tc main_v6) = endsK 1 (edges m c) := st0_col (W0 m ρ c)
  rw [e6, e5, e4, e3, e2, e1]

/-- The first region's two output arrays after it: what its write-backs leave. -/
theorem W6_xw (c : Dev nD) : W6 m ρ c (Proc.devRef .tc main_v16_0) = (dat0 (V5 m ρ) c).arrAt 3 cfg0.N := W6_arr m ρ c 3
theorem W6_dis (c : Dev nD) : W6 m ρ c (Proc.devRef .tc main_v16_1) = (dat0 (V5 m ρ) c).arrAt 4 cfg0.N := W6_arr m ρ c 4

/-- The three gathers: the products at the sources, the weights at the sources, the weights at the targets. -/
theorem W7_xwSrc (c : Dev nD) : W7 m ρ c (Proc.devRef .tc main_v41)
    = takeK (untileN (W6 m ρ c (Proc.devRef .tc main_v16_0))) (W6 m ρ c (Proc.devRef .tc main_v3)) := st1_xwSrc (W6 m ρ c)
theorem W7_disSrc (c : Dev nD) : W7 m ρ c (Proc.devRef .tc main_v27)
    = takeK (untileN (W6 m ρ c (Proc.devRef .tc main_v16_1))) (W6 m ρ c (Proc.devRef .tc main_v3)) := st1_disSrc (W6 m ρ c)
theorem W7_disDst (c : Dev nD) : W7 m ρ c (Proc.devRef .tc main_v34)
    = takeK (untileN (W6 m ρ c (Proc.devRef .tc main_v16_1))) (W6 m ρ c (Proc.devRef .tc main_v6)) := st1_disDst (W6 m ρ c)

/-- Region 1's three operands: the gathered arrays, padded and tiled. -/
theorem W13_xwSrcTile (c : Dev nD) : W13 m ρ c (Proc.devRef .tc main_v45) = tileE (W7 m ρ c (Proc.devRef .tc main_v41)) := by
  have e13 : W13 m ρ c (Proc.devRef .tc main_v45) = shapeCast S671744x128 (W12 m ρ c (Proc.devRef .tc main_v42)) shapeCasts_S85983232_S671744x128 := st1_6_a (W12 m ρ c)
  have e12 : W12 m ρ c (Proc.devRef .tc main_v42) = W11 m ρ c (Proc.devRef .tc main_v42) := by not_written hostOps1_5
  have e11 : W11 m ρ c (Proc.devRef .tc main_v42) = W10 m ρ c (Proc.devRef .tc main_v42) := by not_written hostOps1_4
  have e10 : W10 m ρ c (Proc.devRef .tc main_v42) = W9 m ρ c (Proc.devRef .tc main_v42) := by not_written hostOps1_3
  have e9 : W9 m ρ c (Proc.devRef .tc main_v42) = W8 m ρ c (Proc.devRef .tc main_v42) := by not_written hostOps1_2
  have e8 : W8 m ρ c (Proc.devRef .tc main_v42) = pad S85983232 ![0] ![983232] ![0] (W7 m ρ c (Proc.devRef .tc main_v41)) fill0 pads_S85000000_S85983232_09832320 h_S_ := st1_1_pad (W7 m ρ c) (st1_c (W6 m ρ c))
  rw [e13, e12, e11, e10, e9, e8]
theorem W13_disSrcTile (c : Dev nD) : W13 m ρ c (Proc.devRef .tc main_v46) = tileE (W7 m ρ c (Proc.devRef .tc main_v27)) := by
  have e13 : W13 m ρ c (Proc.devRef .tc main_v46) = shapeCast S671744x128 (W12 m ρ c (Proc.devRef .tc main_v43)) shapeCasts_S85983232_S671744x128 := st1_6_b (W12 m ρ c)
  have e12 : W12 m ρ c (Proc.devRef .tc main_v43) = W11 m ρ c (Proc.devRef .tc main_v43) := by not_written hostOps1_5
  have e11 : W11 m ρ c (Proc.devRef .tc main_v43) = W10 m ρ c (Proc.devRef .tc main_v43) := by not_written hostOps1_4
  have e10 : W10 m ρ c (Proc.devRef .tc main_v43) = pad S85983232 ![0] ![983232] ![0] (W9 m ρ c (Proc.devRef .tc main_v27)) fill0 pads_S85000000_S85983232_09832320 h_S_ := st1_3_pad (W9 m ρ c) (st1_2_c (W8 m ρ c))
  have s9 : W9 m ρ c (Proc.devRef .tc main_v27) = W8 m ρ c (Proc.devRef .tc main_v27) := by not_written hostOps1_2
  have s8 : W8 m ρ c (Proc.devRef .tc main_v27) = W7 m ρ c (Proc.devRef .tc main_v27) := by not_written hostOps1_1
  rw [e13, e12, e11, e10, s9, s8]
theorem W13_disDstTile (c : Dev nD) : W13 m ρ c (Proc.devRef .tc main_v47) = tileE (W7 m ρ c (Proc.devRef .tc main_v34)) := by
  have e13 : W13 m ρ c (Proc.devRef .tc main_v47) = shapeCast S671744x128 (W12 m ρ c (Proc.devRef .tc main_v44)) shapeCasts_S85983232_S671744x128 := st1_6_c (W12 m ρ c)
  have e12 : W12 m ρ c (Proc.devRef .tc main_v44) = pad S85983232 ![0] ![983232] ![0] (W11 m ρ c (Proc.devRef .tc main_v34)) fill0 pads_S85000000_S85983232_09832320 h_S_ := st1_5_pad (W11 m ρ c) (st1_4_c (W10 m ρ c))
  have s11 : W11 m ρ c (Proc.devRef .tc main_v34) = W10 m ρ c (Proc.devRef .tc main_v34) := by not_written hostOps1_4
  have s10 : W10 m ρ c (Proc.devRef .tc main_v34) = W9 m ρ c (Proc.devRef .tc main_v34) := by not_written hostOps1_3
  have s9 : W9 m ρ c (Proc.devRef .tc main_v34) = W8 m ρ c (Proc.devRef .tc main_v34) := by not_written hostOps1_2
  have s8 : W8 m ρ c (Proc.devRef .tc main_v34) = W7 m ρ c (Proc.devRef .tc main_v34) := by not_written hostOps1_1
  rw [e13, e12, s11, s10, s9, s8]

/-- The second region's output array after it. -/
theorem W14_msg (c : Dev nD) : W14 m ρ c (Proc.devRef .tc main_v48) = (dat1 (V13 m ρ) c).arrAt 3 cfg1.N := W14_arr m ρ c 3

/-- The targets pass the second region and everything before it unchanged. -/
theorem W14_col (c : Dev nD) : W14 m ρ c (Proc.devRef .tc main_v6) = endsK 1 (edges m c) := by
  have e14 : W14 m ρ c (Proc.devRef .tc main_v6) = W13 m ρ c (Proc.devRef .tc main_v6) := W14_of_ne m ρ c main_v6 (by decide)
  have e13 : W13 m ρ c (Proc.devRef .tc main_v6) = W12 m ρ c (Proc.devRef .tc main_v6) := by not_written hostOps1_6
  have e12 : W12 m ρ c (Proc.devRef .tc main_v6) = W11 m ρ c (Proc.devRef .tc main_v6) := by not_written hostOps1_5
  have e11 : W11 m ρ c (Proc.devRef .tc main_v6) = W10 m ρ c (Proc.devRef .tc main_v6) := by not_written hostOps1_4
  have e10 : W10 m ρ c (Proc.devRef .tc main_v6) = W9 m ρ c (Proc.devRef .tc main_v6) := by not_written hostOps1_3
  have e9 : W9 m ρ c (Proc.devRef .tc main_v6) = W8 m ρ c (Proc.devRef .tc main_v6) := by not_written hostOps1_2
  have e8 : W8 m ρ c (Proc.devRef .tc main_v6) = W7 m ρ c (Proc.devRef .tc main_v6) := by not_written hostOps1_1
  have e7 : W7 m ρ c (Proc.devRef .tc main_v6) = W6 m ρ c (Proc.devRef .tc main_v6) := by not_written hostOps1
  rw [e14, e13, e12, e11, e10, e9, e8, e7, W6_col]

/-- The aggregate: the per-edge messages added up at the targets, as 100000 graphs of 50 nodes. -/
theorem W15_agg (c : Dev nD) : W15 m ρ c (Proc.devRef .tc main_v54)
    = shapeCast S100000x50 (Host.scatterAdd scatter_S5000000_S85000000x1_S85000000_n_0_0_1
        (broadcastInDim S5000000 ![] bcast_S_S5000000 (constant (F := Ideal) S_ .f32 0x00000000#32))
        (asCol (W14 m ρ c (Proc.devRef .tc main_v6))) (untileE (W14 m ρ c (Proc.devRef .tc main_v48)))) shapeCasts_S5000000_S100000x50 := st2_agg (W14 m ρ c)

/-- An argument at the last region's entry is as launched: nothing after it writes it either. -/
theorem W14_arg3 (c : Dev nD) : W14 m ρ c (Proc.devRef .tc main_arg3) = argB m c := by
  have a16 : W16 m ρ c (Proc.devRef .tc main_arg3) = W15 m ρ c (Proc.devRef .tc main_arg3) := W16_of_ne m ρ c main_arg3 (by decide)
  have a15 : W15 m ρ c (Proc.devRef .tc main_arg3) = W14 m ρ c (Proc.devRef .tc main_arg3) := by not_written hostOps2
  exact (a15.symm.trans a16.symm).trans (W16_main_arg3 m ρ c)
theorem W14_arg4 (c : Dev nD) : W14 m ρ c (Proc.devRef .tc main_arg4) = argFcW m c := by
  have a16 : W16 m ρ c (Proc.devRef .tc main_arg4) = W15 m ρ c (Proc.devRef .tc main_arg4) := W16_of_ne m ρ c main_arg4 (by decide)
  have a15 : W15 m ρ c (Proc.devRef .tc main_arg4) = W14 m ρ c (Proc.devRef .tc main_arg4) := by not_written hostOps2
  exact (a15.symm.trans a16.symm).trans (W16_main_arg4 m ρ c)
theorem W14_arg5 (c : Dev nD) : W14 m ρ c (Proc.devRef .tc main_arg5) = argFcB m c := by
  have a16 : W16 m ρ c (Proc.devRef .tc main_arg5) = W15 m ρ c (Proc.devRef .tc main_arg5) := W16_of_ne m ρ c main_arg5 (by decide)
  have a15 : W15 m ρ c (Proc.devRef .tc main_arg5) = W14 m ρ c (Proc.devRef .tc main_arg5) := by not_written hostOps2
  exact (a15.symm.trans a16.symm).trans (W16_main_arg5 m ρ c)
theorem W15_b (c : Dev nD) : W15 m ρ c (Proc.devRef .tc main_v55) = shapeCast S1x1 (argB m c) shapeCasts_S1_S1x1 :=
  (st2_b (W14 m ρ c)).trans (by rw [W14_arg3])
theorem W15_fcWT (c : Dev nD) : W15 m ρ c (Proc.devRef .tc main_v56) = transpose S50x2 [1, 0] (argFcW m c) transposes_S2x50_S50x2_1_0 :=
  (st2_fcWT (W14 m ρ c)).trans (by rw [W14_arg4])
theorem W15_fcB (c : Dev nD) : W15 m ρ c (Proc.devRef .tc main_v57) = shapeCast S1x2 (argFcB m c) shapeCasts_S2_S1x2 :=
  (st2_fcB (W14 m ρ c)).trans (by rw [W14_arg5])

/-! ## The result -/

/-- The third region's output array after it is the program's result. -/
theorem W16_out (c : Dev nD) : W16 m ρ c (Proc.devRef .tc main_v58) = (dat2 (V15 m ρ) c).arrAt 4 cfg2.N := W16_arr m ρ c 4

end Cert.KernelIdeal.KChain

end
-- ==== Proof.Spec.lean ====
/-
  The one scalar function the two programs share: a node's weight from its degree. Where the degree is positive it is
  the inverse square root of the degree raised to at least one; where it is not, zero.
-/
import Idealize.ShloMosaic.PureOps.Ideal
import Idealize.ShloMosaic.PureOps.Ideal.Laws

noncomputable section

namespace Cert.Spec

open Idealize.ShloMosaic

/-- `d ↦ (max d 1)^(-1/2)` where `d > 0`, and `0` elsewhere, on the extended reals. -/
def disOf (d : EReal) : EReal :=
  Scalar.select (FloatOps.cmpf (F := Ideal) (φ := FTy.f32) CmpFPredicate.ogt d (Ideal.ofBits .f32 0x00000000#32))
    (Ideal.rsqrt (max d (Ideal.ofBits .f32 0x3F800000#32))) (Ideal.ofBits .f32 0x00000000#32)

end Cert.Spec

end
-- ==== Proof.KDefs.lean ====
/-
  The arrays the three kernel regions read, each named at its literal shape as a function into the extended reals, for an
  arbitrary valuation `V` of the TensorCore's buffers at the region's entry.
-/
import proofs.«153830_j48180943127420_1_alg».proof.Proof.Gen.KernelIdeal.Frame
import proofs.«153830_j48180943127420_1_alg».proof.Proof.Spec
import Idealize.ShloMosaic.Lib.ValueIdx

noncomputable section

namespace Cert.KernelIdeal.KV

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Region 0 reads the node features and the degrees, each padded and laid out in rows of 128, and the 1×1 weight. -/
abbrev xTile (c : Dev nD) : S40960x128.Idx → EReal := V c main_v14
abbrev degTile (c : Dev nD) : S40960x128.Idx → EReal := V c main_v15
abbrev convW (c : Dev nD) : S1x1.Idx → EReal := V c main_arg2

/-- Region 1 reads three per-edge arrays, padded and laid out in rows of 128: the gathered products `x·w` at the edge's
    source, and the gathered weights at its source and at its target. -/
abbrev xwSrcTile (c : Dev nD) : S671744x128.Idx → EReal := V c main_v45
abbrev disSrcTile (c : Dev nD) : S671744x128.Idx → EReal := V c main_v46
abbrev disDstTile (c : Dev nD) : S671744x128.Idx → EReal := V c main_v47

/-- Region 2 reads the aggregated node values as 100000 graphs of 50 nodes, the 1×1 bias, the transposed 50×2 weight
    and the 1×2 bias. -/
abbrev aggRows (c : Dev nD) : S100000x50.Idx → EReal := V c main_v54
abbrev convB (c : Dev nD) : S1x1.Idx → EReal := V c main_v55
abbrev fcWT (c : Dev nD) : S50x2.Idx → EReal := V c main_v56
abbrev fcB (c : Dev nD) : S1x2.Idx → EReal := V c main_v57

end Cert.KernelIdeal.KV

end
-- ==== Proof.Region01.lean ====
/-
  The arrays the first two kernel regions leave, each as one function of the arrays the region reads.

  Region 0 walks ten blocks of 4096 rows of two 40960×128 outputs: one holds, entry by entry, the node feature times the
  single weight; the other the node's weight from its degree. Region 1 walks 82 blocks of 8192 rows of a 671744×128
  output holding, entry by entry, the product of its three inputs. In each region every point writes its block back and the
  blocks tile the array, so the array ends as that function everywhere.
-/
import proofs.«153830_j48180943127420_1_alg».proof.Proof.KDefs
import Idealize.ShloMosaic.Lib.Pipeline.Value
import Idealize.ShloMosaic.Lib.ValueIdx
import Idealize.ShloMosaic.PureOps.Ideal.Laws

noncomputable section

namespace Cert.KernelIdeal.Region01
open Cert.KernelIdeal Cert.KernelIdeal.Gen Cert.KernelIdeal.KV Idealize.ShloMosaic Idealize.ShloMosaic.TcCoe Idealize.ShloMosaic.ValueIdx Idealize.SL.Sem
variable (V : (c : Dev nD) → (b : Ref sig .tc) → Buf (Elt Ideal) ((c : Thread nD τ).loc b))

/-- The zero offsets, spelt as the constant function. -/
theorem hz : (![0, 0] : Fin 2 → Nat) = fun _ => 0 := funext fun a => by fin_cases a <;> rfl

/-- Region 0's first payload at an index: the feature block's entry times the weight's one entry. -/
theorem pay01_apply (v0 : Vec Ideal S1x1 .f32) (v2 : Vec Ideal S4096x128 .f32) (j : S4096x128.Idx) :
    k0_pay1 v0 v2 j = v2 j * v0 (ix2 0 0) := by
  unfold k0_pay1
  simp only [shapeCast_self]
  show v2 j * extractAt ![0, 0] v0 inpos_S1x1_p0_0 = v2 j * v0 (ix2 0 0)
  congr 1
  exact congrArg v0 (funext fun a => by fin_cases a <;> rfl)

/-- Region 0's second payload at an index: the node weight of the degree block's entry. -/
theorem pay02_apply (v7 : Vec Ideal S4096x128 .f32) (j : S4096x128.Idx) :
    k0_pay2 v7 j = Cert.Spec.disOf (v7 j) := by
  unfold k0_pay2 Cert.Spec.disOf
  simp only [shapeCast_self]
  rfl

/-- Region 1's payload at an index: the product of the three blocks' entries, associated to the left. -/
theorem pay11_apply (v0 v2 v5 : Vec Ideal S8192x128 .f32) (j : S8192x128.Idx) :
    k1_pay1 v0 v2 v5 j = (v0 j * v2 j) * v5 j := by
  unfold k1_pay1
  simp only [shapeCast_self]
  rfl

/-! ## Region 0: the grid's ten points, blocks of 4096 rows -/

/-- The index maps over the grid: each input block moves with the output block it feeds, the weight's block stays at
    the origin, and the output block at point `t` is block row `t`, block column 0. -/
theorem idx_facts0 : ∀ t : Fin cfg0.N, win0_0.index t (0 : Fin 2) = win0_3.index t (0 : Fin 2)
    ∧ win0_0.index t (1 : Fin 2) = win0_3.index t (1 : Fin 2)
    ∧ win0_1.index t (0 : Fin 2) = win0_4.index t (0 : Fin 2)
    ∧ win0_1.index t (1 : Fin 2) = win0_4.index t (1 : Fin 2)
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The first output as a function of the arrays read: feature times weight. -/
abbrev G03 (c : Dev nD) : S40960x128.Idx → EReal := fun i => xTile V c i * convW V c (ix2 0 0)

/-- What point `t` writes back to the first output is block `t` of that function. -/
theorem flushed03_eq (c : Dev nD) (t : Fin cfg0.N) :
    (dat0 V c).flushed 3 t = ((cfg0.win 3).blk t).view.read (Elt Ideal) (G03 V c) := by
  show (cfg0.win 3).cut (grid0.coords t) ((dat0 V c).after 3 t) = _
  rw [after0_3]
  unfold out0_3
  rw [View.canon_unit_zero hz]
  simp only [View.ld_unit_zero (S := S4096x128) hz, View.ld_unit_zero (S := S1x1) hz]
  funext j
  show k0_pay1 (iblk0 V c 2 t) (iblk0 V c 0 t) ((win0 3).xinj (grid0.coords t) j) = _
  rw [pay01_apply]
  obtain ⟨e0, e1, e2, e3, e4, e5, e6, e7, e8, e9⟩ := idx_facts0 t
  show xTile V c (((cfg0.win 0).blk t).view.emb j) * convW V c (((cfg0.win 2).blk t).view.emb (ix2 0 0))
     = xTile V c (((cfg0.win 3).blk t).view.emb j) * convW V c (ix2 0 0)
  have h0 : ((cfg0.win 0).blk t).view.emb j = ((cfg0.win 3).blk t).view.emb j := by
    funext a; apply Fin.ext
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 128 + 1 * (j 1).val = win0_3.index t (1 : Fin 2) * 128 + 1 * (j 1).val; omega
  have h2 : ((cfg0.win 2).blk t).view.emb (ix2 0 0) = ix2 0 0 := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  rw [h0, h2]

/-- An index is in point `t`'s block iff each coordinate lies in the block's range on its axis. -/
theorem mem_blk03 (t : Fin cfg0.N) (i : S40960x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v16_0).slice (win0_3.rect t)).set ↔ _
  rw [View.set_slice_whole, Rect.mem_set_unit]
  exact Iff.rfl

/-- Row `r` lies in the block of point `r / 4096`: the blocks cover the array. -/
theorem cover03 (i : S40960x128.Idx) : ∃ t : Fin cfg0.N, (cfg0.win 3).flush t = true ∧ i ∈ ((cfg0.win 3).blk t).view.set := by
  have hi0 : (i 0).val < 40960 := (i 0).isLt
  have hi1 : (i 1).val < 128 := (i 1).isLt
  obtain ⟨t, ht⟩ : ∃ t : Fin cfg0.N, t.val = (i 0).val / 4096 := ⟨⟨(i 0).val / 4096, by show _ < 10; omega⟩, rfl⟩
  obtain ⟨e0, e1, e2, e3, e4, e5, e6, e7, e8, e9⟩ := idx_facts0 t
  refine ⟨t, flush0_3 t, ?_⟩
  rw [mem_blk03]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- The first output array after region 0. -/
theorem xw2_array (c : Dev nD) : (dat0 V c).arrAt 3 cfg0.N = G03 V c :=
  (dat0 V c).arrAt_eq_of_cover 3 (G03 V c) (fun t _ => flushed03_eq V c t) cover03

/-- … read at an index given by its coordinates. -/
theorem xw2_final (c : Dev nD) (r : Fin 40960) (l : Fin 128) :
    (dat0 V c).arrAt 3 cfg0.N (ix2 r l) = xTile V c (ix2 r l) * convW V c (ix2 0 0) :=
  congrFun (xw2_array V c) (ix2 r l)

/-- The second output as a function of the arrays read: the node weight of the degree. -/
abbrev G04 (c : Dev nD) : S40960x128.Idx → EReal := fun i => Cert.Spec.disOf (degTile V c i)

/-- What point `t` writes back to the second output is block `t` of that function. -/
theorem flushed04_eq (c : Dev nD) (t : Fin cfg0.N) :
    (dat0 V c).flushed 4 t = ((cfg0.win 4).blk t).view.read (Elt Ideal) (G04 V c) := by
  show (cfg0.win 4).cut (grid0.coords t) ((dat0 V c).after 4 t) = _
  rw [after0_4]
  unfold out0_4
  rw [View.canon_unit_zero hz]
  simp only [View.ld_unit_zero (S := S4096x128) hz]
  funext j
  show k0_pay2 (iblk0 V c 1 t) ((win0 4).xinj (grid0.coords t) j) = _
  rw [pay02_apply]
  obtain ⟨e0, e1, e2, e3, e4, e5, e6, e7, e8, e9⟩ := idx_facts0 t
  show Cert.Spec.disOf (degTile V c (((cfg0.win 1).blk t).view.emb j)) = Cert.Spec.disOf (degTile V c (((cfg0.win 4).blk t).view.emb j))
  have h1 : ((cfg0.win 1).blk t).view.emb j = ((cfg0.win 4).blk t).view.emb j := by
    funext a; apply Fin.ext
    match a with
    | ⟨0, _⟩ => show win0_1.index t (0 : Fin 2) * 4096 + 1 * (j 0).val = win0_4.index t (0 : Fin 2) * 4096 + 1 * (j 0).val; omega
    | ⟨1, _⟩ => show win0_1.index t (1 : Fin 2) * 128 + 1 * (j 1).val = win0_4.index t (1 : Fin 2) * 128 + 1 * (j 1).val; omega
  rw [h1]

/-- An index is in point `t`'s block iff each coordinate lies in the block's range on its axis. -/
theorem mem_blk04 (t : Fin cfg0.N) (i : S40960x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v16_1).slice (win0_4.rect t)).set ↔ _
  rw [View.set_slice_whole, Rect.mem_set_unit]
  exact Iff.rfl

/-- Row `r` lies in the block of point `r / 4096`: the blocks cover the array. -/
theorem cover04 (i : S40960x128.Idx) : ∃ t : Fin cfg0.N, (cfg0.win 4).flush t = true ∧ i ∈ ((cfg0.win 4).blk t).view.set := by
  have hi0 : (i 0).val < 40960 := (i 0).isLt
  have hi1 : (i 1).val < 128 := (i 1).isLt
  obtain ⟨t, ht⟩ : ∃ t : Fin cfg0.N, t.val = (i 0).val / 4096 := ⟨⟨(i 0).val / 4096, by show _ < 10; omega⟩, rfl⟩
  obtain ⟨e0, e1, e2, e3, e4, e5, e6, e7, e8, e9⟩ := idx_facts0 t
  refine ⟨t, flush0_4 t, ?_⟩
  rw [mem_blk04]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- The second output array after region 0. -/
theorem dis2_array (c : Dev nD) : (dat0 V c).arrAt 4 cfg0.N = G04 V c :=
  (dat0 V c).arrAt_eq_of_cover 4 (G04 V c) (fun t _ => flushed04_eq V c t) cover04

/-- … read at an index given by its coordinates. -/
theorem dis2_final (c : Dev nD) (r : Fin 40960) (l : Fin 128) :
    (dat0 V c).arrAt 4 cfg0.N (ix2 r l) = Cert.Spec.disOf (degTile V c (ix2 r l)) :=
  congrFun (dis2_array V c) (ix2 r l)

/-! ## Region 1: the grid's 82 points, blocks of 8192 rows -/

/-- The index maps over the grid: each input block moves with the output block, which at point `t` is block row `t`,
    block column 0. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = win1_3.index t (1 : Fin 2)
    ∧ win1_3.index t (0 : Fin 2) = t.val ∧ win1_3.index t (1 : Fin 2) = 0 :=
  (by decide +kernel : ∀ t : Fin grid1.N, _)

/-- The output as a function of the arrays read: the product of the three. -/
abbrev G13 (c : Dev nD) : S671744x128.Idx → EReal := fun i => (xwSrcTile V c i * disSrcTile V c i) * disDstTile V c i

/-- What point `t` writes back is block `t` of that function. -/
theorem flushed13_eq (c : Dev nD) (t : Fin cfg1.N) :
    (dat1 V c).flushed 3 t = ((cfg1.win 3).blk t).view.read (Elt Ideal) (G13 V c) := by
  show (cfg1.win 3).cut (grid1.coords t) ((dat1 V c).after 3 t) = _
  rw [after1_3]
  unfold out1_3
  rw [View.canon_unit_zero hz]
  simp only [View.ld_unit_zero (S := S8192x128) hz]
  funext j
  show k1_pay1 (iblk1 V c 0 t) (iblk1 V c 1 t) (iblk1 V c 2 t) ((win1 3).xinj (grid1.coords t) j) = _
  rw [pay11_apply]
  obtain ⟨e0, e1, e2, e3, e4, e5, e6, e7⟩ := idx_facts1 t
  show (xwSrcTile V c (((cfg1.win 0).blk t).view.emb j) * disSrcTile V c (((cfg1.win 1).blk t).view.emb j)) * disDstTile V c (((cfg1.win 2).blk t).view.emb j)
     = (xwSrcTile V c (((cfg1.win 3).blk t).view.emb j) * disSrcTile V c (((cfg1.win 3).blk t).view.emb j)) * disDstTile V c (((cfg1.win 3).blk t).view.emb j)
  have h0 : ((cfg1.win 0).blk t).view.emb j = ((cfg1.win 3).blk t).view.emb j := by
    funext a; apply Fin.ext
    match a with
    | ⟨0, _⟩ => show win1_0.index t (0 : Fin 2) * 8192 + 1 * (j 0).val = win1_3.index t (0 : Fin 2) * 8192 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 8192 + 1 * (j 0).val = win1_3.index t (0 : Fin 2) * 8192 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 8192 + 1 * (j 0).val = win1_3.index t (0 : Fin 2) * 8192 + 1 * (j 0).val; omega
    | ⟨1, _⟩ => show win1_2.index t (1 : Fin 2) * 128 + 1 * (j 1).val = win1_3.index t (1 : Fin 2) * 128 + 1 * (j 1).val; omega
  rw [h0, h1, h2]

/-- An index is in point `t`'s block iff each coordinate lies in the block's range on its axis. -/
theorem mem_blk13 (t : Fin cfg1.N) (i : S671744x128.Idx) :
    i ∈ ((cfg1.win 3).blk t).view.set ↔ ∀ a : Fin 2, win1_3.index t a * S8192x128.size a ≤ (i a).val ∧ (i a).val < win1_3.index t a * S8192x128.size a + S8192x128.size a := by
  show i ∈ ((View.whole main_v48).slice (win1_3.rect t)).set ↔ _
  rw [View.set_slice_whole, Rect.mem_set_unit]
  exact Iff.rfl

/-- Row `r` lies in the block of point `r / 8192`: the blocks cover the array. -/
theorem cover13 (i : S671744x128.Idx) : ∃ t : Fin cfg1.N, (cfg1.win 3).flush t = true ∧ i ∈ ((cfg1.win 3).blk t).view.set := by
  have hi0 : (i 0).val < 671744 := (i 0).isLt
  have hi1 : (i 1).val < 128 := (i 1).isLt
  obtain ⟨t, ht⟩ : ∃ t : Fin cfg1.N, t.val = (i 0).val / 8192 := ⟨⟨(i 0).val / 8192, by show _ < 82; omega⟩, rfl⟩
  obtain ⟨e0, e1, e2, e3, e4, e5, e6, e7⟩ := idx_facts1 t
  refine ⟨t, flush1_3 t, ?_⟩
  rw [mem_blk13]
  intro a
  match a with
  | ⟨0, _⟩ => show win1_3.index t (0 : Fin 2) * 8192 ≤ (i 0).val ∧ (i 0).val < win1_3.index t (0 : Fin 2) * 8192 + 8192; omega
  | ⟨1, _⟩ => show win1_3.index t (1 : Fin 2) * 128 ≤ (i 1).val ∧ (i 1).val < win1_3.index t (1 : Fin 2) * 128 + 128; omega

/-- The output array after region 1. -/
theorem msg2_array (c : Dev nD) : (dat1 V c).arrAt 3 cfg1.N = G13 V c :=
  (dat1 V c).arrAt_eq_of_cover 3 (G13 V c) (fun t _ => flushed13_eq V c t) cover13

/-- … read at an index given by its coordinates. -/
theorem msg2_final (c : Dev nD) (r : Fin 671744) (l : Fin 128) :
    (dat1 V c).arrAt 3 cfg1.N (ix2 r l) = (xwSrcTile V c (ix2 r l) * disSrcTile V c (ix2 r l)) * disDstTile V c (ix2 r l) :=
  congrFun (msg2_array V c) (ix2 r l)

end Cert.KernelIdeal.Region01
end
-- ==== Proof.Region2.lean ====
/-
  The third kernel region's output array as one function of the four arrays the region reads.

  The region runs over ten grid points. At point t it reads rows 10000·t … 10000·t + 9999 of the 100000×50 array and the
  whole of the three small arrays (a 1×1 bias, a 50×2 weight, a 1×2 bias), and writes rows 10000·t … 10000·t + 9999 of
  the 100000×2 output: the bias added to every entry of the block, the product with the weight accumulated from zero,
  and the second bias's one row added to every row. Read at an index this is a sum over the fifty columns; the ten
  blocks tile the output's rows, so the array ends holding that sum at every entry.
-/
import proofs.«153830_j48180943127420_1_alg».proof.Proof.KDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2

open Cert.KernelIdeal Cert.KernelIdeal.Gen Cert.KernelIdeal.KV Idealize.ShloMosaic Idealize.ShloMosaic.TcCoe Idealize.ShloMosaic.ValueIdx Idealize.SL.Sem

variable (V : (c : Dev nD) → (b : Ref sig .tc) → Buf (Elt Ideal) ((c : Thread nD τ).loc b))

/-! ## The body's arithmetic at an index -/

/-- The left operand of the product is read at the output's row, -/
theorem lhs_ax0 (i : S10000x2.Idx) (q : dot_S10000x50_S50x2_S10000x2_1_0_0_1_n_n.contr.Idx) :
    (dot_S10000x50_S50x2_S10000x2_1_0_0_1_n_n.lhsIdx i q 0).val = (i 0).val := by
  unfold DotDims.lhsIdx
  rw [dif_neg (show ¬(0 : Fin S10000x50.rank) ∈ dot_S10000x50_S50x2_S10000x2_1_0_0_1_n_n.lhsBatch by decide), dif_pos (show (0 : Fin S10000x50.rank) ∈ dot_S10000x50_S50x2_S10000x2_1_0_0_1_n_n.lhsNonContracting by decide)]
  rfl
/-- and at the summation index on its second axis; -/
theorem lhs_ax1 (i : S10000x2.Idx) (q : dot_S10000x50_S50x2_S10000x2_1_0_0_1_n_n.contr.Idx) :
    (dot_S10000x50_S50x2_S10000x2_1_0_0_1_n_n.lhsIdx i q 1).val = (q ⟨0, by decide⟩).val :=
  dot_S10000x50_S50x2_S10000x2_1_0_0_1_n_n.lhsIdx_val_of_single rfl i q
/-- the right operand at the summation index on its first axis, -/
theorem rhs_ax0 (i : S10000x2.Idx) (q : dot_S10000x50_S50x2_S10000x2_1_0_0_1_n_n.contr.Idx) :
    (dot_S10000x50_S50x2_S10000x2_1_0_0_1_n_n.rhsIdx i q 0).val = (q ⟨0, by decide⟩).val :=
  dot_S10000x50_S50x2_S10000x2_1_0_0_1_n_n.rhsIdx_val_of_single rfl i q
/-- and at the output's column. -/
theorem rhs_ax1 (i : S10000x2.Idx) (q : dot_S10000x50_S50x2_S10000x2_1_0_0_1_n_n.contr.Idx) :
    (dot_S10000x50_S50x2_S10000x2_1_0_0_1_n_n.rhsIdx i q 1).val = (i 1).val := by
  unfold DotDims.rhsIdx
  rw [dif_neg (show ¬(1 : Fin S50x2.rank) ∈ dot_S10000x50_S50x2_S10000x2_1_0_0_1_n_n.rhsBatch by decide), dif_pos (show (1 : Fin S50x2.rank) ∈ dot_S10000x50_S50x2_S10000x2_1_0_0_1_n_n.rhsNonContracting by decide)]
  rfl

/-- The product into the zero accumulator, read at row p and column q, is the sum over the fifty columns of the
    left operand's row p times the right operand's column q. -/
theorem matmul_at (A : FVec Ideal S10000x50 .f32) (B : FVec Ideal S50x2 .f32) (p : Fin 10000) (q : Fin 2) :
    matmul dot_S10000x50_S50x2_S10000x2_1_0_0_1_n_n none A B (constant S10000x2 .f32 0x00000000#32) (ix2 p q)
      = ∑ k : Fin 50, A (ix2 p k) * B (ix2 k q) := by
  refine (Ideal.matmul_constant_zero_apply dot_S10000x50_S50x2_S10000x2_1_0_0_1_n_n none A B (ix2 p q)).trans ?_
  rw [← Equiv.sum_comp (contrEquiv1 dot_S10000x50_S50x2_S10000x2_1_0_0_1_n_n 50 rfl rfl).symm]
  refine Finset.sum_congr rfl fun k _ => ?_
  have hk := contrEquiv1_symm_val dot_S10000x50_S50x2_S10000x2_1_0_0_1_n_n 50 rfl rfl k
  have el : dot_S10000x50_S50x2_S10000x2_1_0_0_1_n_n.lhsIdx (ix2 p q) ((contrEquiv1 dot_S10000x50_S50x2_S10000x2_1_0_0_1_n_n 50 rfl rfl).symm k) = ix2 p k := funext fun a => Fin.ext (by
    match a with
    | ⟨0, _⟩ => exact lhs_ax0 _ _
    | ⟨1, _⟩ => exact (lhs_ax1 _ _).trans hk)
  have er : dot_S10000x50_S50x2_S10000x2_1_0_0_1_n_n.rhsIdx (ix2 p q) ((contrEquiv1 dot_S10000x50_S50x2_S10000x2_1_0_0_1_n_n 50 rfl rfl).symm k) = ix2 k q := funext fun a => Fin.ext (by
    match a with
    | ⟨0, _⟩ => exact (rhs_ax0 _ _).trans hk
    | ⟨1, _⟩ => exact rhs_ax1 _ _)
  rw [el, er]

/-- THE PAYLOAD AT AN INDEX: the bias added to every entry of the block, the product with the weight summed over the
    fifty columns from zero, and the second bias's one row added to every row. -/
theorem pay_at (v0 : Vec Ideal S1x1 .f32) (v2 : Vec Ideal S10000x50 .f32) (v6 : Vec Ideal S50x2 .f32) (v9 : Vec Ideal S1x2 .f32)
    (p : Fin 10000) (q : Fin 2) :
    k2_pay1 v0 v2 v6 v9 (ix2 p q) = (0 + ∑ k : Fin 50, (v2 (ix2 p k) + v0 (ix2 0 0)) * v6 (ix2 k q)) + v9 (ix2 0 q) := by
  have e0 : extractAt ![0, 0] v0 inpos_S1x1_p0_0 = v0 (ix2 0 0) :=
    congrArg v0 (funext fun a => by match a with | ⟨0, _⟩ => rfl | ⟨1, _⟩ => rfl)
  unfold k2_pay1
  refine (addf_apply _ _ (ix2 p q)).trans ?_
  refine congrArg₂ (· + ·) ?_ ?_
  · rw [zero_add]
    refine (matmul_at _ _ p q).trans ?_
    refine Finset.sum_congr rfl fun k _ => ?_
    refine congrArg₂ (· * ·) ?_ ?_
    · refine (addf_apply _ _ (ix2 p k)).trans ?_
      rw [shapeCast_self, broadcast_apply, e0]
    · rw [shapeCast_self]
  · refine (broadcastTo_1b_ab_apply _ _ p q).trans ?_
    rw [shapeCast_self]

/-! ## What each grid point writes back -/

/-- The zero offsets of a whole-block access, as the constant function. -/
theorem hz : (![0, 0] : Fin 2 → Nat) = fun _ => 0 := funext fun a => by fin_cases a <;> rfl

/-- The output array's value as one function of the four arrays the region reads: row g of the first array, the
    1×1 bias added to each of its fifty entries, times column q of the weight, summed from zero, plus the second
    bias at q. -/
abbrev G (a : S100000x50.Idx → EReal) (b : S1x1.Idx → EReal) (w : S50x2.Idx → EReal) (fb : S1x2.Idx → EReal) :
    S100000x2.Idx → EReal :=
  fun i => (0 + ∑ k : Fin 50, (a (ix2 (n0 := 100000) (n1 := 50) (i 0) k) + b (ix2 0 0)) * w (ix2 (n0 := 50) (n1 := 2) k (i 1)))
    + fb (ix2 (n0 := 1) (n1 := 2) 0 (i 1))

/-- The printed index maps, decided over the ten grid points: the first input's block moves with the output's down
    the rows, the three small inputs are whole at every point, and the output's block number is the point's. -/
theorem idx_facts : ∀ t : Fin cfg2.N, win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every one of the ten row blocks is some point's. -/
theorem idx_onto : ∀ q0 : Fin 10, ∃ t : Fin cfg2.N, win2_4.index t = ![q0.val, 0] :=
  (by decide +kernel : ∀ q0 : Fin 10, ∃ t : Fin grid2.N, win2_4.index t = ![q0.val, 0])

/-- WHAT POINT `t` WRITES BACK is block `t` of `G` of the four arrays as the region finds them: the payload read at an
    index of the block, the first input's block read at the output's rows and the three small arrays read whole. -/
theorem flushed_eq (c : Dev nD) (t : Fin cfg2.N) :
    (dat2 V c).flushed 4 t = ((cfg2.win 4).blk t).view.read (Elt Ideal) (G (aggRows V c) (convB V c) (fcWT V c) (fcB V c)) := by
  show (cfg2.win 4).cut (grid2.coords t) ((dat2 V c).after 4 t) = _
  rw [after2_4]
  unfold out2_4
  rw [View.canon_unit_zero hz]
  simp only [View.ld_unit_zero (S := S1x1) hz, View.ld_unit_zero (S := S10000x50) hz, View.ld_unit_zero (S := S50x2) hz, View.ld_unit_zero (S := S1x2) hz]
  obtain ⟨e0, e1, e2, e3, e4, e5, e6, e7, e8, e9⟩ := idx_facts t
  funext j
  obtain ⟨p, q, rfl⟩ : ∃ (p : Fin 10000) (q : Fin 2), j = ix2 p q := ⟨j 0, j 1, eq_ix2 j⟩
  refine (pay_at (iblk2 V c 1 t) (iblk2 V c 0 t) (iblk2 V c 2 t) (iblk2 V c 3 t) p q).trans ?_
  have h0 : ∀ k : Fin 50, ((cfg2.win 0).blk t).view.emb (ix2 p k)
      = ix2 (n0 := 100000) (n1 := 50) (((cfg2.win 4).blk t).view.emb (ix2 p q) 0) k := fun k => by
    funext a; apply Fin.ext
    match a with
    | ⟨0, _⟩ => show win2_0.index t (0 : Fin 2) * 10000 + 1 * p.val = win2_4.index t (0 : Fin 2) * 10000 + 1 * p.val; omega
    | ⟨1, _⟩ => show win2_0.index t (1 : Fin 2) * 50 + 1 * k.val = k.val; omega
  have h1 : ((cfg2.win 1).blk t).view.emb (ix2 0 0) = ix2 (n0 := 1) (n1 := 1) 0 0 := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  have h2 : ∀ k : Fin 50, ((cfg2.win 2).blk t).view.emb (ix2 k q)
      = ix2 (n0 := 50) (n1 := 2) k (((cfg2.win 4).blk t).view.emb (ix2 p q) 1) := fun k => by
    funext a; apply Fin.ext
    match a with
    | ⟨0, _⟩ => show win2_2.index t (0 : Fin 2) * 50 + 1 * k.val = k.val; omega
    | ⟨1, _⟩ => show win2_2.index t (1 : Fin 2) * 2 + 1 * q.val = win2_4.index t (1 : Fin 2) * 2 + 1 * q.val; omega
  have h3 : ((cfg2.win 3).blk t).view.emb (ix2 0 q)
      = ix2 (n0 := 1) (n1 := 2) 0 (((cfg2.win 4).blk t).view.emb (ix2 p q) 1) := by
    funext a; apply Fin.ext
    match a with
    | ⟨0, _⟩ => show win2_3.index t (0 : Fin 2) * 1 + 1 * 0 = 0; omega
    | ⟨1, _⟩ => show win2_3.index t (1 : Fin 2) * 2 + 1 * q.val = win2_4.index t (1 : Fin 2) * 2 + 1 * q.val; omega
  refine congrArg₂ (· + ·) (congrArg (0 + ·) (Finset.sum_congr rfl fun k _ => congrArg₂ (· * ·) (congrArg₂ (· + ·) ?_ ?_) ?_)) ?_
  · exact congrArg (aggRows V c) (h0 k)
  · exact congrArg (convB V c) h1
  · exact congrArg (fcWT V c) (h2 k)
  · exact congrArg (fcB V c) h3

/-! ## The ten blocks cover the array -/

/-- An index of the array is in point `t`'s block iff each coordinate is in the block's range on its axis. -/
theorem mem_blk (t : Fin cfg2.N) (i : S100000x2.Idx) :
    i ∈ ((cfg2.win 4).blk t).view.set ↔ ∀ a : Fin 2, win2_4.index t a * S10000x2.size a ≤ (i a).val ∧ (i a).val < win2_4.index t a * S10000x2.size a + S10000x2.size a := by
  show i ∈ ((View.whole main_v58).slice (win2_4.rect t)).set ↔ _
  rw [View.set_slice_whole, Rect.mem_set_unit]
  exact Iff.rfl

/-- Row r of the array lies in the block of the point r / 10000, and both columns lie in every block. -/
theorem cover (i : S100000x2.Idx) :
    ∃ t : Fin cfg2.N, (cfg2.win 4).flush t = true ∧ i ∈ ((cfg2.win 4).blk t).view.set := by
  have hi0 : (i 0).val < 100000 := (i 0).isLt
  have hi1 : (i 1).val < 2 := (i 1).isLt
  obtain ⟨t, ht⟩ := idx_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 2 ≤ (i 1).val ∧ (i 1).val < win2_4.index t (1 : Fin 2) * 2 + 2; omega

/-! ## The array after the region -/

/-- Every point writes back its block of `G` and the blocks cover the array: the array ends holding `G`. -/
theorem out_array (c : Dev nD) :
    (dat2 V c).arrAt 4 cfg2.N = G (aggRows V c) (convB V c) (fcWT V c) (fcB V c) :=
  (dat2 V c).arrAt_eq_of_cover 4 _ (fun t _ => flushed_eq V c t) cover

/-- THE OUTPUT, ENTRY BY ENTRY: at row g and column q, the sum over the fifty entries of row g, each with the 1×1 bias
    added, times column q of the weight, from zero, plus the second bias at q. -/
theorem out_final (c : Dev nD) (g : Fin 100000) (q : Fin 2) :
    (dat2 V c).arrAt 4 cfg2.N (ix2 g q) = (0 + ∑ k : Fin 50, (aggRows V c (ix2 g k) + convB V c (ix2 0 0)) * fcWT V c (ix2 k q)) + fcB V c (ix2 0 q) := by
  rw [out_array]

end Cert.KernelIdeal.Region2
end
-- ==== Proof.LibTile.lean ====
/-
  A flat array laid out in rows, and back.

  A flat array of `n` entries is padded at its end with a filler up to `m = R * C` entries and reshaped, row-major,
  to `R` rows of `C` entries: entry `(r, l)` of the rows is entry `r * C + l` of the flat array whenever that
  position is below `n` (`tile_apply`, and `tile_apply_hi` with the amount of padding a free variable). The way
  back: `R` rows of `C` entries reshaped to a flat array of `m` entries and cut to its first `n` entries has at
  entry `j` the entry `(j / C, j % C)` of the rows (`untile_apply`). Both hold for any element type.
-/
import Idealize.ShloMosaic.Lib.ValueIdx
import Idealize.ShloMosaic.Lib.Pipeline.Value
import Idealize.ShloMosaic.Lib.KernelVsHost

namespace Cert.LibTile

open Idealize.ShloMosaic Idealize.ShloMosaic.ValueIdx

/-- A flat array of `n` entries padded at its END with `hi` copies of a filler (to `m` entries) and reshaped row-major
    to `R` rows of `C` entries: at row `r`, column `l`, with the flat position `r * C + l` below `n`, it is the
    array's entry at that position. The padded length is `n + hi` (read off the padding's shape rule), so the position
    is inside the padded array; the reshape keeps the row-major position, `r * C + l` on both sides. -/
theorem tile_apply_hi {α : Type} {n m R C hi : Nat} (a : (⟨1, ![n]⟩ : Shape).Idx → α) {u : Shape} (v : u.Idx → α)
    (hp : (⟨1, ![n]⟩ : Shape).Pads (![0] : Fin 1 → Nat) ![hi] ![0] ⟨1, ![m]⟩) (hu : 0 < u.numel)
    (hc : (⟨1, ![m]⟩ : Shape).ShapeCasts ⟨2, ![R, C]⟩) (r : Fin R) (l : Fin C) (h : r.val * C + l.val < n) :
    shapeCast ⟨2, ![R, C]⟩ (pad ⟨1, ![m]⟩ ![0] ![hi] ![0] a v hp hu) hc (ix2 r l) = a (ix1 ⟨r.val * C + l.val, h⟩) := by
  -- the padded length: `m = 0 + n + 0 * (n - 1) + hi`
  have hnm : n ≤ m := by
    have e : m = 0 + n + 0 * (n - 1) + hi := hp.2 (0 : Fin 1)
    omega
  have hm : r.val * C + l.val < m := Nat.lt_of_lt_of_le h hnm
  -- the reshape reads the padded array at the same row-major position
  refine (shapeCast_apply _ hc (ix2 r l) (ix1 (⟨r.val * C + l.val, hm⟩ : Fin m)) (by
    rw [Shape.rowMajor_val_two, Shape.rowMajor_val_one]; rfl)).trans ?_
  -- that position is inside the operand of the padding
  exact pad_apply_of_inside _ _ _ a v hp hu _ (ix1 (⟨r.val * C + l.val, h⟩ : Fin n)) (by
    intro b
    have hb : b = 0 := Subsingleton.elim _ _
    subst hb
    show r.val * C + l.val = 0 + (r.val * C + l.val) * (0 + 1)
    omega)

/-- `tile_apply_hi` with the amount of padding written as the difference `m - n` of the two lengths. -/
theorem tile_apply {α : Type} {n m R C : Nat} (a : (⟨1, ![n]⟩ : Shape).Idx → α) {u : Shape} (v : u.Idx → α)
    (hp : (⟨1, ![n]⟩ : Shape).Pads (![0] : Fin 1 → Nat) ![m - n] ![0] ⟨1, ![m]⟩) (hu : 0 < u.numel)
    (hc : (⟨1, ![m]⟩ : Shape).ShapeCasts ⟨2, ![R, C]⟩) (r : Fin R) (l : Fin C) (h : r.val * C + l.val < n) :
    shapeCast ⟨2, ![R, C]⟩ (pad ⟨1, ![m]⟩ ![0] ![m - n] ![0] a v hp hu) hc (ix2 r l) = a (ix1 ⟨r.val * C + l.val, h⟩) :=
  tile_apply_hi a v hp hu hc r l h

/-- `R` rows of `C` entries reshaped row-major to a flat array of `m` entries and cut to its first `n` entries: entry
    `j` is the rows' entry at row `j / C`, column `j % C` (that row exists, `hr`). The cut reads the flat array at `j`
    itself, and the reshape keeps the row-major position: `(j / C) * C + j % C = j`. -/
theorem untile_apply {α : Type} {n m R C : Nat} (b : (⟨2, ![R, C]⟩ : Shape).Idx → α)
    (hc : (⟨2, ![R, C]⟩ : Shape).ShapeCasts ⟨1, ![m]⟩) (hs : (⟨1, ![m]⟩ : Shape).Slices ![0] ⟨1, ![n]⟩)
    (hC : 0 < C) (j : Fin n) (hr : j.val / C < R) :
    extractStridedSlice ⟨1, ![n]⟩ ![0] (shapeCast ⟨1, ![m]⟩ b hc) hs (ix1 j)
      = b (ix2 ⟨j.val / C, hr⟩ ⟨j.val % C, Nat.mod_lt _ hC⟩) := by
  -- the cut fits: `0 + n ≤ m`
  have hm : j.val < m := by
    have e : (0 : Nat) + n ≤ m := hs.2 (0 : Fin 1)
    have hj : j.val < n := j.isLt
    omega
  -- the cut at offset 0 reads the flat array at `j`
  refine (extractStridedSlice_apply _ _ hs (ix1 j) (ix1 (⟨j.val, hm⟩ : Fin m)) (by
    intro a
    have ha : a = 0 := Subsingleton.elim _ _
    subst ha
    show j.val = 0 + j.val
    omega)).trans ?_
  -- the reshape reads the rows at the same row-major position
  exact shapeCast_apply b hc (ix1 (⟨j.val, hm⟩ : Fin m)) (ix2 ⟨j.val / C, hr⟩ ⟨j.val % C, Nat.mod_lt _ hC⟩) (by
    rw [Shape.rowMajor_val_two, Shape.rowMajor_val_one]
    show j.val / C * C + j.val % C = j.val
    exact Nat.div_add_mod' _ _)

end Cert.LibTile
-- ==== Proof.LibRowGatherClamp.lean ====
import Idealize.ShloMosaic.Lib.ValueIdx

/-! # Gathering rows of a two-axis table

A gather of a table `x : [N, C]` at an `[E, 1]` column of signed start indices, axis 0
collapsed and start-indexed, axis 1 kept whole as the result's offset axis: the result at `(e, c)`
is the table at the row the `e`-th start index names, read signed and clamped into `[0, N − 1]`,
and column `c`. -/

namespace Cert.LibRowGatherClamp

open Idealize.ShloMosaic Idealize.ShloMosaic.ValueIdx

/-- The dimension numbers of a row gather: operand `[N, C]`, start indices `[E, 1]` with the index
    vector on axis 1, result `[E, C]`; operand axis 0 is collapsed and named by the start index map,
    operand axis 1 is read whole (slice sizes `[1, C]`) through the result's offset axis 1; there
    are no batching axes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- The row of an `N`-row table a 32-bit start index names: the word read as a signed integer,
    a negative one taken to `0`, and the result capped at the last row `N − 1`. -/
def clampRow (N : Nat) (hN : 0 < N) (b : BitVec 32) : Fin N := ⟨min b.toInt.toNat (N - 1), by omega⟩

/-- THE ROW GATHER READ AT `(e, c)`: the table at the clamped row of the `e`-th start index, column `c`. -/
theorem gather_rows_clamp {α : Type} {N E C : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ 32) (e : Fin E) (c : Fin C) :
    Host.gather (rowGatherDims N E C wf) x col (ix2 e c) = x (ix2 (clampRow N hN (col (ix2 e (0 : Fin 1)))) c) := by
  -- AXIS 0 is collapsed and start-indexed: no batching, no offset; the start is the start index's
  -- one component, clamped so that a slice of one row fits
  have h0 : (rowGatherDims N E C wf).start (ix2 e c) col (0 : Fin 2) + (rowGatherDims N E C wf).batchCoord (ix2 e c) (0 : Fin 2)
      + (rowGatherDims N E C wf).offCoord (ix2 e c) (0 : Fin 2) = (clampRow N hN (col (ix2 e (0 : Fin 1)))).val := by
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ (rowGatherDims N E C wf).startIndexMap from List.mem_singleton.mpr rfl)]
    -- the component is read at the result's batch coordinate `e`, with `0` on the index vector's axis
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- AXIS 1 is kept and not start-indexed: the slice starts at 0, there is no batching, and the
  -- offset is the result's coordinate on its one offset axis, `c`
  have h1 : (rowGatherDims N E C wf).start (ix2 e c) col (1 : Fin 2) + (rowGatherDims N E C wf).batchCoord (ix2 e c) (1 : Fin 2)
      + (rowGatherDims N E C wf).offCoord (ix2 e c) (1 : Fin 2) = c.val := by
    have hne : ¬ (1 : Fin 2) = 0 := by decide
    rw [GatherDims.batchCoord_eq_zero _ _ _ List.not_mem_nil, Nat.add_zero]
    unfold GatherDims.start
    rw [dif_neg (show (1 : Fin 2) ∉ (rowGatherDims N E C wf).startIndexMap from
      fun h => hne (List.mem_singleton.mp h)), Nat.zero_add]
    unfold GatherDims.offCoord
    rw [dif_pos (show (1 : Fin 2) ∈ (rowGatherDims N E C wf).sKept from
      (GatherDims.mem_sKept _ _).mpr ⟨fun h => hne (List.mem_singleton.mp h), List.not_mem_nil⟩)]
    rfl
  unfold Host.gather
  congr 1
  funext a
  refine Fin.ext ?_
  match a with
  | ⟨0, _⟩ => exact h0
  | ⟨1, _⟩ => exact h1

end Cert.LibRowGatherClamp
-- ==== Proof.KValue.lean ====
/-
  The kernel program's stages read at an index.

  Each region works on arrays that were padded to a whole number of blocks and laid out in rows of 128; read back at a
  node `n` (or an edge `e`) the padding and the tiling cancel, and what is left is the region's pointwise formula of the
  untiled arrays: the product `x·w` and the weight `disOf (degree)` at a node, the product of three gathered values at
  an edge. The three gathers read their table at the index column's entry, negative entries counted from the end, then
  clamped into the table. The result is the last region's affine map of the aggregate's rows.
-/
import proofs.«153830_j48180943127420_1_alg».proof.Proof.KChain
import proofs.«153830_j48180943127420_1_alg».proof.Proof.KDefs
import proofs.«153830_j48180943127420_1_alg».proof.Proof.Region01
import proofs.«153830_j48180943127420_1_alg».proof.Proof.Region2
import proofs.«153830_j48180943127420_1_alg».proof.Proof.LibTile
import proofs.«153830_j48180943127420_1_alg».proof.Proof.LibRowGatherClamp
import Idealize.ShloMosaic.Lib.StableHlo.Predicate
import Idealize.ShloMosaic.Lib.ValueLayout
import Idealize.ShloMosaic.Lib.Pipeline.Value

set_option maxRecDepth 16384

noncomputable section

namespace Cert.KernelIdeal.KValue

open Cert.KernelIdeal Cert.KernelIdeal.Gen Cert.KernelIdeal.KV Cert.KernelIdeal.KChain
open Idealize.ShloMosaic Idealize.ShloMosaic.TcCoe Idealize.ShloMosaic.ValueIdx Idealize.SL.Sem
open Cert.LibRowGatherClamp (clampRow)

/-! ## Tiling and untiling read at an index -/

theorem untileN_apply (b : S40960x128.Idx → EReal) (n : Fin 5000000) :
    untileN b (ix1 n) = b (ix2 (⟨n.val / 128, by have := n.isLt; omega⟩ : Fin 40960) (⟨n.val % 128, Nat.mod_lt _ (by decide)⟩ : Fin 128)) :=
  Cert.LibTile.untile_apply b shapeCasts_S40960x128_S5242880 slices_S5242880_S5000000_0 (by decide) n (by have := n.isLt; omega)

theorem tileN_apply (a : S5000000.Idx → EReal) (r : Fin 40960) (l : Fin 128) (h : r.val * 128 + l.val < 5000000) :
    tileN a (ix2 r l) = a (ix1 ⟨r.val * 128 + l.val, h⟩) :=
  Cert.LibTile.tile_apply_hi a fill0 pads_S5000000_S5242880_02428800 h_S_ shapeCasts_S5242880_S40960x128 r l h

theorem untileE_apply (b : S671744x128.Idx → EReal) (e : Fin 85000000) :
    untileE b (ix1 e) = b (ix2 (⟨e.val / 128, by have := e.isLt; omega⟩ : Fin 671744) (⟨e.val % 128, Nat.mod_lt _ (by decide)⟩ : Fin 128)) :=
  Cert.LibTile.untile_apply b shapeCasts_S671744x128_S85983232 slices_S85983232_S85000000_0 (by decide) e (by have := e.isLt; omega)

theorem tileE_apply (a : S85000000.Idx → EReal) (r : Fin 671744) (l : Fin 128) (h : r.val * 128 + l.val < 85000000) :
    tileE a (ix2 r l) = a (ix1 ⟨r.val * 128 + l.val, h⟩) :=
  Cert.LibTile.tile_apply_hi a fill0 pads_S85000000_S85983232_09832320 h_S_ shapeCasts_S85983232_S671744x128 r l h

/-- Tiled, then untiled, a node array reads at `n` what it held at `n`. -/
theorem tileN_at (a : S5000000.Idx → EReal) (n : Fin 5000000) :
    tileN a (ix2 (⟨n.val / 128, by have := n.isLt; omega⟩ : Fin 40960) (⟨n.val % 128, Nat.mod_lt _ (by decide)⟩ : Fin 128)) = a (ix1 n) := by
  have hn := n.isLt
  rw [tileN_apply a _ _ (by show n.val / 128 * 128 + n.val % 128 < 5000000; omega)]
  exact congrArg (fun k => a (ix1 k)) (Fin.ext (by show n.val / 128 * 128 + n.val % 128 = n.val; omega))

theorem tileE_at (a : S85000000.Idx → EReal) (e : Fin 85000000) :
    tileE a (ix2 (⟨e.val / 128, by have := e.isLt; omega⟩ : Fin 671744) (⟨e.val % 128, Nat.mod_lt _ (by decide)⟩ : Fin 128)) = a (ix1 e) := by
  have he := e.isLt
  rw [tileE_apply a _ _ (by show e.val / 128 * 128 + e.val % 128 < 85000000; omega)]
  exact congrArg (fun k => a (ix1 k)) (Fin.ext (by show e.val / 128 * 128 + e.val % 128 = e.val; omega))

/-- The flat node features at `n` are the feature column at `(n, 0)`. -/
theorem flat_apply (x : S5000000x1.Idx → EReal) (n : Fin 5000000) :
    shapeCast S5000000 x shapeCasts_S5000000x1_S5000000 (ix1 n) = x (ix2 n (0 : Fin 1)) :=
  shapeCast_apply x shapeCasts_S5000000x1_S5000000 (ix1 n) (ix2 n (0 : Fin 1))
    (by rewrite [Shape.rowMajor_val_two, Shape.rowMajor_val_one]; show n.val * 1 + 0 = n.val; omega)

/-! ## The gather read at an edge -/

theorem ofFin_eq_ix1 {n : Nat} (k : Fin n) : Shape.Idx.ofFin k = ix1 k :=
  funext fun a => by obtain rfl : a = 0 := Subsingleton.elim _ _; exact Fin.ext rfl

theorem ixP_eq_ix2 {n : Nat} (p : Fin n) : StableHlo.Predicate.ixP p = ix2 p (0 : Fin 1) :=
  funext fun a => match a with | ⟨0, _⟩ => rfl | ⟨1, _⟩ => rfl

/-- A table read at a vector of indices, at edge `e`: the table at the clamped entry of the index column. -/
theorem takeK_apply (t : S5000000.Idx → EReal) (r : IVec S85000000 32) (e : Fin 85000000) :
    takeK t r (ix1 e) = t (ix1 (clampRow 5000000 (by decide) (asCol (wrapN r) (ix2 e (0 : Fin 1))))) := by
  have h := StableHlo.Predicate.gather_take gather_S5000000_S85000000x1_S85000000_n_0_n_n_0_1_1 rfl rfl rfl rfl t (asCol (wrapN r)) e (by decide)
  rw [ofFin_eq_ix1, ofFin_eq_ix1] at h
  refine h.trans (congrArg (fun k => t (ix1 k)) (Fin.ext ?_))
  show min (asCol (wrapN r) (StableHlo.Predicate.ixP e)).toInt.toNat (5000000 - 1) = min (asCol (wrapN r) (ix2 e (0 : Fin 1))).toInt.toNat (5000000 - 1)
  rw [ixP_eq_ix2]

variable (m : (ℓ : Loc nD τ sig) → Buf (Elt Ideal) ℓ) (ρ : Dev nD → PrngReg)

/-! ## The regions' operands at the boundaries, each at its literal type -/

theorem xTile_V5 (c : Dev nD) : xTile (V5 m ρ) c = tileN (shapeCast S5000000 (feats m c) shapeCasts_S5000000x1_S5000000) := W5_xTile m ρ c
theorem degTile_V5 (c : Dev nD) : degTile (V5 m ρ) c = tileN (degK (edges m c)) := W5_degTile m ρ c
theorem convW_V5 (c : Dev nD) : convW (V5 m ρ) c = argW m c := W5_w m ρ c

/-- The three gathered per-edge arrays and the per-edge message, each as a function of the edge into the extended reals. -/
abbrev xwSrcK (c : Dev nD) : S85000000.Idx → EReal := W7 m ρ c (Proc.devRef .tc main_v41)
abbrev disSrcK (c : Dev nD) : S85000000.Idx → EReal := W7 m ρ c (Proc.devRef .tc main_v27)
abbrev disDstK (c : Dev nD) : S85000000.Idx → EReal := W7 m ρ c (Proc.devRef .tc main_v34)
abbrev msgK (c : Dev nD) : S85000000.Idx → EReal := untileE (W14 m ρ c (Proc.devRef .tc main_v48))

theorem xwSrcTile_V13 (c : Dev nD) : xwSrcTile (V13 m ρ) c = tileE (xwSrcK m ρ c) := W13_xwSrcTile m ρ c
theorem disSrcTile_V13 (c : Dev nD) : disSrcTile (V13 m ρ) c = tileE (disSrcK m ρ c) := W13_disSrcTile m ρ c
theorem disDstTile_V13 (c : Dev nD) : disDstTile (V13 m ρ) c = tileE (disDstK m ρ c) := W13_disDstTile m ρ c

/-! ## The first region's two outputs at a node -/

theorem xwK_apply (c : Dev nD) (n : Fin 5000000) :
    untileN (W6 m ρ c (Proc.devRef .tc main_v16_0)) (ix1 n) = feats m c (ix2 n (0 : Fin 1)) * argW m c (ix2 (0 : Fin 1) (0 : Fin 1)) := by
  rw [untileN_apply, W6_xw, Region01.xw2_final, xTile_V5, convW_V5, tileN_at, flat_apply]

theorem disK_apply (c : Dev nD) (n : Fin 5000000) :
    untileN (W6 m ρ c (Proc.devRef .tc main_v16_1)) (ix1 n) = Cert.Spec.disOf (degK (edges m c) (ix1 n)) := by
  rw [untileN_apply, W6_dis, Region01.dis2_final, degTile_V5, tileN_at]

/-- The weights as one function of the node. -/
theorem disK_eq (c : Dev nD) :
    untileN (W6 m ρ c (Proc.devRef .tc main_v16_1)) = fun i => Cert.Spec.disOf (degK (edges m c) i) := by
  funext i
  obtain ⟨n, rfl⟩ : ∃ n : Fin 5000000, i = ix1 n := ⟨i 0, eq_ix1 i⟩
  exact disK_apply m ρ c n

/-! ## The gathered arrays -/

/-- The product `x·w` gathered at the sources, at edge `e`. -/
theorem xwSrc_apply (c : Dev nD) (e : Fin 85000000) :
    xwSrcK m ρ c (ix1 e)
      = feats m c (ix2 (clampRow 5000000 (by decide) (asCol (wrapN (endsK 0 (edges m c))) (ix2 e (0 : Fin 1)))) (0 : Fin 1))
          * argW m c (ix2 (0 : Fin 1) (0 : Fin 1)) := by
  have h : xwSrcK m ρ c = takeK (untileN (W6 m ρ c (Proc.devRef .tc main_v16_0))) (endsK 0 (edges m c)) := by
    show W7 m ρ c (Proc.devRef .tc main_v41) = _
    rw [W7_xwSrc, W6_row]
  rw [h, takeK_apply]
  exact xwK_apply m ρ c _

/-- The weights gathered at the sources and at the targets, as whole arrays. -/
theorem disSrc_eq (c : Dev nD) :
    disSrcK m ρ c = takeK (fun i => Cert.Spec.disOf (degK (edges m c) i)) (endsK 0 (edges m c)) := by
  show W7 m ρ c (Proc.devRef .tc main_v27) = _
  rw [W7_disSrc, W6_row, disK_eq]
theorem disDst_eq (c : Dev nD) :
    disDstK m ρ c = takeK (fun i => Cert.Spec.disOf (degK (edges m c) i)) (endsK 1 (edges m c)) := by
  show W7 m ρ c (Proc.devRef .tc main_v34) = _
  rw [W7_disDst, W6_col, disK_eq]

/-! ## The second region's output at an edge -/

theorem msgK_apply (c : Dev nD) (e : Fin 85000000) :
    msgK m ρ c (ix1 e) = (xwSrcK m ρ c (ix1 e) * disSrcK m ρ c (ix1 e)) * disDstK m ρ c (ix1 e) := by
  show untileE (W14 m ρ c (Proc.devRef .tc main_v48)) (ix1 e) = _
  rw [untileE_apply, W14_msg, Region01.msg2_final, xwSrcTile_V13, disSrcTile_V13, disDstTile_V13, tileE_at, tileE_at, tileE_at]

/-! ## The aggregate and the result -/

/-- The aggregate: the per-edge messages added up at the targets (the exact sum, an out-of-range target dropped). -/
def aggK (c : Dev nD) : S5000000.Idx → EReal :=
  Host.scatterAdd scatter_S5000000_S85000000x1_S85000000_n_0_0_1
    (broadcastInDim S5000000 ![] bcast_S_S5000000 (constant (F := Ideal) S_ .f32 0x00000000#32))
    (asCol (endsK 1 (edges m c))) (msgK m ρ c)

theorem aggRows_V15 (c : Dev nD) : aggRows (V15 m ρ) c = shapeCast S100000x50 (aggK m ρ c) shapeCasts_S5000000_S100000x50 := by
  have h : aggRows (V15 m ρ) c = _ := W15_agg m ρ c
  rw [h, W14_col]
  rfl
theorem convB_V15 (c : Dev nD) : convB (V15 m ρ) c = shapeCast S1x1 (argB m c) shapeCasts_S1_S1x1 := W15_b m ρ c
theorem fcWT_V15 (c : Dev nD) : fcWT (V15 m ρ) c = transpose S50x2 [1, 0] (argFcW m c) transposes_S2x50_S50x2_1_0 := W15_fcWT m ρ c
theorem fcB_V15 (c : Dev nD) : fcB (V15 m ρ) c = shapeCast S1x2 (argFcB m c) shapeCasts_S2_S1x2 := W15_fcB m ρ c

theorem aggRows_apply (c : Dev nD) (g : Fin 100000) (k : Fin 50) :
    aggRows (V15 m ρ) c (ix2 g k)
      = aggK m ρ c (ix1 (⟨g.val * 50 + k.val, by have := g.isLt; have := k.isLt; omega⟩ : Fin 5000000)) := by
  rw [aggRows_V15]
  exact shapeCast_apply _ shapeCasts_S5000000_S100000x50 (ix2 g k) (ix1 (⟨g.val * 50 + k.val, by have := g.isLt; have := k.isLt; omega⟩ : Fin 5000000))
    (by rewrite [Shape.rowMajor_val_two, Shape.rowMajor_val_one]; rfl)

theorem convB_apply (c : Dev nD) : convB (V15 m ρ) c (ix2 (0 : Fin 1) (0 : Fin 1)) = argB m c (ix1 (0 : Fin 1)) := by
  rw [convB_V15]
  exact shapeCast_apply _ shapeCasts_S1_S1x1 (ix2 (0 : Fin 1) (0 : Fin 1)) (ix1 (0 : Fin 1))
    (by rewrite [Shape.rowMajor_val_two, Shape.rowMajor_val_one]; rfl)

theorem fcWT_apply (c : Dev nD) (k : Fin 50) (q : Fin 2) : fcWT (V15 m ρ) c (ix2 k q) = argFcW m c (ix2 q k) := by
  rw [fcWT_V15]
  exact transpose_ix2_apply (argFcW m c) transposes_S2x50_S50x2_1_0 k q

theorem fcB_apply (c : Dev nD) (q : Fin 2) : fcB (V15 m ρ) c (ix2 (0 : Fin 1) q) = argFcB m c (ix1 q) := by
  rw [fcB_V15]
  exact shapeCast_apply _ shapeCasts_S2_S1x2 (ix2 (0 : Fin 1) q) (ix1 q)
    (by rewrite [Shape.rowMajor_val_two, Shape.rowMajor_val_one]; show q.val = 0 * 2 + q.val; omega)

/-- THE RESULT at graph `g`, class `q`: the sum over the graph's 50 nodes of (aggregate + bias) times the class's weight,
    plus the class's bias. -/
theorem out_apply (c : Dev nD) (g : Fin 100000) (q : Fin 2) :
    W16 m ρ c (Proc.devRef .tc main_v58) (ix2 g q)
      = (0 + ∑ k : Fin 50, (aggK m ρ c (ix1 (⟨g.val * 50 + k.val, by have := g.isLt; have := k.isLt; omega⟩ : Fin 5000000)) + argB m c (ix1 (0 : Fin 1)))
            * argFcW m c (ix2 q k)) + argFcB m c (ix1 q) := by
  rw [W16_out, Region2.out_final, convB_apply, fcB_apply]
  have hs : (∑ k : Fin 50, (aggRows (V15 m ρ) c (ix2 g k) + argB m c (ix1 (0 : Fin 1))) * fcWT (V15 m ρ) c (ix2 k q))
      = ∑ k : Fin 50, (aggK m ρ c (ix1 (⟨g.val * 50 + k.val, by have := g.isLt; have := k.isLt; omega⟩ : Fin 5000000)) + argB m c (ix1 (0 : Fin 1)))
          * argFcW m c (ix2 q k) :=
    Finset.sum_congr rfl fun k _ => by rw [aggRows_apply, fcWT_apply]
  rw [hs]

end Cert.KernelIdeal.KValue

end
-- ==== Proof.LibScatterCol.lean ====
/-
  A COLUMN SCATTER-ADD IS THE FLAT ONE. A float scatter-add of a column of updates `[E, 1]` into a column operand
  `[N, 1]` and the scatter-add of the flat update vector `[E]` into the flat operand `[N]`, both reading the same
  column `[E, 1]` of signed start indices, agree: the column result at `(n, 0)` is the flat result at `n`
  (`scatterAdd_col_eq_vec`). In both, update `e` lands at the node whose number is the start index `idx[e, 0]` read
  signed, and is dropped when that number is negative or at least `N`; on the column's second axis the start is `0`
  and the window coordinate is the update's coordinate on an axis of extent 1, so it adds nothing. The general step is
  `resultIdx?_eq_some_iff`: an update lands at `i` exactly when start plus window coordinate is `i`'s coordinate on
  every operand axis.
-/
import Idealize.ShloMosaic.Lib.ValueIdx
import Idealize.ShloMosaic.Lib.ValueIdxRank1
import Idealize.ShloMosaic.PureOps.Ideal.Laws

noncomputable section

open scoped BigOperators

namespace Cert.LibScatterCol

open Idealize.ShloMosaic Idealize.ShloMosaic.ValueIdx

/-- The dimension numbers of a scatter of a flat update vector `[E]` into a flat operand `[N]`, the start
    indices a column `[E, 1]`: no window axes, operand axis 0 inserted and named by the index vector. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The dimension numbers of a scatter of a column of updates `[E, 1]` into a column operand `[N, 1]`, the
    start indices a column `[E, 1]`: update axis 1 is the window axis (it goes to operand axis 1), operand
    axis 0 inserted and named by the index vector. -/
abbrev colScatterDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ :=
  { updateWindowDims := [1], insertedWindowDims := [0], scatterDimsToOperandDims := [0], indexVectorDim := 1, wf := wf }

/-! ## Where an update lands, for any dimension numbers -/

/-- An update index `j` lands at operand index `i` exactly when, on every operand axis, the signed start plus
    the window coordinate is `i`'s coordinate there (in particular it is then inside the operand). -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  constructor
  · intro h
    split at h
    · rename_i hc
      intro a
      have h1 := congrArg Fin.val (congrFun (Option.some.inj h) a)
      have h2 := (hc a).1
      simp only at h1
      omega
    · cases h
  · intro h
    have hc : ∀ a, 0 ≤ d.start j idx a + d.window j a ∧ d.start j idx a + d.window j a < s.size a := by
      intro a
      rw [h a]
      exact ⟨Int.natCast_nonneg _, by exact_mod_cast (i a).isLt⟩
    rw [dif_pos hc]
    congr 1
    funext a
    refine Fin.ext ?_
    show (d.start j idx a + d.window j a).toNat = (i a).val
    rw [h a, Int.toNat_natCast]

/-! ## The flat scatter: start and window of update `e` -/

/-- Flat scatter, operand axis 0: the start of update `e` is the start index `idx[e, 0]` read signed. -/
theorem vec_start {N E : Nat} (wf : ScatterDims.WF ⟨1, ![N]⟩ ⟨2, ![E, 1]⟩ ⟨1, ![E]⟩ [] [0] [0] 1)
    (idx : IVec ⟨2, ![E, 1]⟩ 32) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  congr 2
  funext b; refine Fin.ext ?_
  match b with
  | ⟨0, _⟩ => rfl
  | ⟨1, _⟩ => rfl

/-- Flat scatter, operand axis 0: the axis is inserted, so the window coordinate is `0`. -/
theorem vec_window {N E : Nat} (wf : ScatterDims.WF ⟨1, ![N]⟩ ⟨2, ![E, 1]⟩ ⟨1, ![E]⟩ [] [0] [0] 1) (e : Fin E) :
    (vecScatterDims N E wf).window (ix1 e) 0 = 0 := by
  have h : (0 : Fin 1) ∉ (vecScatterDims N E wf).sKept := by
    show (0 : Fin 1) ∉ (List.finRange 1).filter (· ∉ [(0 : Fin 1)]); decide
  unfold ScatterDims.window
  exact dif_neg h

/-- Flat scatter: update `e` lands at node `n` exactly when its start index, read signed, is `n`. -/
theorem vec_resultIdx?_iff {N E : Nat} (wf : ScatterDims.WF ⟨1, ![N]⟩ ⟨2, ![E, 1]⟩ ⟨1, ![E]⟩ [] [0] [0] 1)
    (idx : IVec ⟨2, ![E, 1]⟩ 32) (e : Fin E) (n : Fin N) :
    (vecScatterDims N E wf).resultIdx? (ix1 e) idx = some (ix1 n)
      ↔ (idx (ix2 e (0 : Fin 1))).toInt = (n.val : Int) := by
  refine (resultIdx?_eq_some_iff _ _ _ _).trans ?_
  constructor
  · intro h
    have h0 := h 0
    rw [vec_start, vec_window] at h0
    have h1 : (idx (ix2 e (0 : Fin 1))).toInt + ((0 : Nat) : Int) = (n.val : Int) := h0
    omega
  · intro h a
    obtain rfl : a = 0 := Subsingleton.elim _ _
    rw [vec_start, vec_window, h]
    show (n.val : Int) + ((0 : Nat) : Int) = (n.val : Int)
    omega

/-! ## The column scatter: start and window of update `(e, 0)` on the two operand axes -/

/-- Column scatter, operand axis 0: the start of update `(e, 0)` is the start index `idx[e, 0]` read signed. -/
theorem col_start0 {N E : Nat} (wf : ScatterDims.WF ⟨2, ![N, 1]⟩ ⟨2, ![E, 1]⟩ ⟨2, ![E, 1]⟩ [1] [0] [0] 1)
    (idx : IVec ⟨2, ![E, 1]⟩ 32) (e : Fin E) :
    (colScatterDims N E wf).start (ix2 e (0 : Fin 1)) idx 0 = (idx (ix2 e (0 : Fin 1))).toInt := by
  unfold ScatterDims.start
  rw [dif_pos (show (0 : Fin 2) ∈ (colScatterDims N E wf).scatterDimsToOperandDims from List.mem_singleton.mpr rfl)]
  congr 2
  funext b; refine Fin.ext ?_
  match b with
  | ⟨0, _⟩ => rfl
  | ⟨1, _⟩ => rfl

/-- Column scatter, operand axis 1: the index vector does not name it, so the start is `0`. -/
theorem col_start1 {N E : Nat} (wf : ScatterDims.WF ⟨2, ![N, 1]⟩ ⟨2, ![E, 1]⟩ ⟨2, ![E, 1]⟩ [1] [0] [0] 1)
    (idx : IVec ⟨2, ![E, 1]⟩ 32) (e : Fin E) :
    (colScatterDims N E wf).start (ix2 e (0 : Fin 1)) idx 1 = 0 := by
  unfold ScatterDims.start
  rw [dif_neg (show (1 : Fin 2) ∉ [(0 : Fin 2)] by decide)]

/-- Column scatter, operand axis 0: the axis is inserted, so the window coordinate is `0`. -/
theorem col_window0 {N E : Nat} (wf : ScatterDims.WF ⟨2, ![N, 1]⟩ ⟨2, ![E, 1]⟩ ⟨2, ![E, 1]⟩ [1] [0] [0] 1) (e : Fin E) :
    (colScatterDims N E wf).window (ix2 e (0 : Fin 1)) 0 = 0 := by
  have h : (0 : Fin 2) ∉ (colScatterDims N E wf).sKept := by
    show (0 : Fin 2) ∉ (List.finRange 2).filter (· ∉ [(0 : Fin 2)]); decide
  unfold ScatterDims.window
  exact dif_neg h

/-- Column scatter, operand axis 1: the window coordinate is the update's coordinate on its window axis,
    which is `0` (the axis has extent 1). -/
theorem col_window1 {N E : Nat} (wf : ScatterDims.WF ⟨2, ![N, 1]⟩ ⟨2, ![E, 1]⟩ ⟨2, ![E, 1]⟩ [1] [0] [0] 1) (e : Fin E) :
    (colScatterDims N E wf).window (ix2 e (0 : Fin 1)) 1 = 0 := by
  have h : (1 : Fin 2) ∈ (colScatterDims N E wf).sKept := by
    show (1 : Fin 2) ∈ (List.finRange 2).filter (· ∉ [(0 : Fin 2)]); decide
  unfold ScatterDims.window
  exact (dif_pos h).trans rfl

/-- Column scatter: update `(e, 0)` lands at `(n, 0)` exactly when its start index, read signed, is `n`
    (on axis 1 both sides are `0`). -/
theorem col_resultIdx?_iff {N E : Nat} (wf : ScatterDims.WF ⟨2, ![N, 1]⟩ ⟨2, ![E, 1]⟩ ⟨2, ![E, 1]⟩ [1] [0] [0] 1)
    (idx : IVec ⟨2, ![E, 1]⟩ 32) (e : Fin E) (n : Fin N) :
    (colScatterDims N E wf).resultIdx? (ix2 e (0 : Fin 1)) idx = some (ix2 n (0 : Fin 1))
      ↔ (idx (ix2 e (0 : Fin 1))).toInt = (n.val : Int) := by
  refine (resultIdx?_eq_some_iff _ _ _ _).trans ?_
  refine Fin.forall_fin_two.trans ?_
  rw [col_start0, col_window0, col_start1, col_window1]
  show ((idx (ix2 e (0 : Fin 1))).toInt + ((0 : Nat) : Int) = (n.val : Int)
      ∧ (0 : Int) + ((0 : Nat) : Int) = (((0 : Fin 1)).val : Int)) ↔ _
  constructor
  · intro h; omega
  · intro h; refine ⟨by omega, by simp⟩

/-! ## The two scatter-adds agree -/

/-- THE COLUMN SCATTER-ADD AT `(n, 0)` IS THE FLAT ONE AT `n`: with operands and updates that agree through the
    column reading (`x2 (n, 0) = x1 n`, `u2 (e, 0) = u1 e`) and the same start indices (any signed words: an
    update whose start is negative or at least `N` is dropped in both), both are the operand's value plus the sum
    over the edges `e` whose start index is `n` of the update at `e`. -/
theorem scatterAdd_col_eq_vec {N E : Nat}
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (hx : ∀ n : Fin N, x2 (ix2 n (0 : Fin 1)) = x1 (ix1 n))
    (u1 : (⟨1, ![E]⟩ : Shape).Idx → EReal) (u2 : (⟨2, ![E, 1]⟩ : Shape).Idx → EReal)
    (hu : ∀ e : Fin E, u2 (ix2 e (0 : Fin 1)) = u1 (ix1 e))
    (idx : IVec ⟨2, ![E, 1]⟩ 32) (n : Fin N) :
    Ideal.hostScatterAdd (colScatterDims N E wf2) x2 idx u2 (ix2 n (0 : Fin 1))
      = Ideal.hostScatterAdd (vecScatterDims N E wf1) x1 idx u1 (ix1 n) := by
  unfold Ideal.hostScatterAdd
  rw [hx n]
  congr 1
  -- both filtered sums become sums over the edges `e : Fin E` of "the update at `e` if it lands at `n`, else 0"
  rw [Finset.sum_filter, Finset.sum_filter, sum_idx2, ← Equiv.sum_comp (idxEquiv1 (n := E)).symm]
  refine Finset.sum_congr rfl fun e _ => ?_
  rw [Fin.sum_univ_one]
  exact if_congr ((col_resultIdx?_iff wf2 idx e n).trans (vec_resultIdx?_iff wf1 idx e n).symm) (hu e) rfl

end Cert.LibScatterCol
-- ==== Proof.Bridge.lean ====
/-
  The kernel program's result is the reference's, index by index, on the extended reals.

  The two programs share their host prefix word for word: the edge list's two rows with the self loops appended, the
  degree (ones added up at the targets), the index columns with negative entries counted from the end. They differ in
  four places, and each is an identity of the extended reals or of array layouts:
  * the per-node product `x·w`: the reference contracts a column with a 1×1 matrix over an axis of length one;
  * the per-node weight: one scalar function of the degree on both sides;
  * the per-edge message: the kernel multiplies `(xw·dis_src)·dis_dst`, the reference `xw·(dis_src·dis_dst)` —
    multiplication on the extended reals is associative, with no condition at the infinities;
  * the aggregate: the kernel adds a flat vector of messages into a flat vector of nodes, the reference a column into a
    column, at the same index column — the same exact sums;
  and the last layer: `(agg + b) @ Wᵀ + fcb` as a sum over a graph's 50 nodes on both sides.
-/
import proofs.«153830_j48180943127420_1_alg».proof.Proof.KValue
import proofs.«153830_j48180943127420_1_alg».proof.Proof.RefReadGen
import proofs.«153830_j48180943127420_1_alg».proof.Proof.LibScatterCol
import proofs.«153830_j48180943127420_1_alg».proof.Proof.LibRowGatherClamp

set_option maxRecDepth 16384

noncomputable section

namespace Cert.Proof.Bridge

open Cert.KernelIdeal.KChain Cert.KernelIdeal.KValue Cert.ReferenceIdeal.ReadP
open Idealize.ShloMosaic Idealize.ShloMosaic.TcCoe Idealize.ShloMosaic.ValueIdx Idealize.SL.Sem
open Cert.LibRowGatherClamp (clampRow rowGatherDims gather_rows_clamp)

section Stages

variable (x0 : (⟨Cert.ReferenceIdeal.S5000000x1, .f32⟩ : BufTy).Contents (Elt Ideal))
  (x1 : (⟨Cert.ReferenceIdeal.S2x80000000, .i32⟩ : BufTy).Contents (Elt Ideal))
  (x2 : (⟨Cert.ReferenceIdeal.S1x1, .f32⟩ : BufTy).Contents (Elt Ideal))

/-! ## The shared host prefix -/

theorem row_eq : endsK 0 x1 = val_main_v4 (F := Ideal) x1 := rfl
theorem col_eq : endsK 1 x1 = val_main_v7 (F := Ideal) x1 := rfl
theorem deg_eq : degK x1 = val_main_v11 (F := Ideal) x1 := rfl
theorem srcCol_eq : asCol (wrapN (endsK 0 x1)) = val_main_v23 (F := Ideal) x1 := rfl
theorem dstCol_eq : asCol (wrapN (endsK 1 x1)) = val_main_v30 (F := Ideal) x1 := rfl
theorem srcCol_eq' : asCol (wrapN (endsK 0 x1)) = val_main_v38 (F := Ideal) x1 := rfl
theorem tgtCol_eq : asCol (endsK 1 x1) = val_main_v43 (F := Ideal) x1 := rfl

/-! ## The per-node weight -/

theorem dis_eq : (fun i => Cert.Spec.disOf (degK x1 i)) = val_main_v17 (F := Ideal) x1 := by
  funext i
  rw [val_main_v17_apply, val_main_v13_apply, val_main_v16_apply, val_main_v15_apply, val_main_v12_apply, val_main_v14_apply,
    val_main_call0_v1_apply, val_main_call0_v0_apply, val_main_cst_1_apply, val_main_cst_2_apply, val_main_cst_3_apply, deg_eq]
  generalize val_main_v11 (F := Ideal) x1 i = d
  unfold Cert.Spec.disOf
  rfl

/-- The weights gathered at the sources and at the targets are the reference's gathers. -/
theorem disSrc_ref : takeK (fun i => Cert.Spec.disOf (degK x1 i)) (endsK 0 x1) = val_main_v24 (F := Ideal) x1 := by
  rw [dis_eq]; rfl
theorem disDst_ref : takeK (fun i => Cert.Spec.disOf (degK x1 i)) (endsK 1 x1) = val_main_v31 (F := Ideal) x1 := by
  rw [dis_eq]; rfl

/-! ## The per-node product and its gather -/

theorem xwR_apply (n : Fin 5000000) :
    val_main_v0 (F := Ideal) x0 x2 (ix2 n (0 : Fin 1)) = x0 (ix2 n (0 : Fin 1)) * x2 (ix2 (0 : Fin 1) (0 : Fin 1)) := by
  rw [val_main_v0_apply, Fin.sum_univ_one]
  have el : lidx_main_v0 (ix2 n (0 : Fin 1)) (0 : Fin 1) = ix2 n (0 : Fin 1) := Shape.idx_ext₂ rfl rfl
  have er : ridx_main_v0 (ix2 n (0 : Fin 1)) (0 : Fin 1) = ix2 (0 : Fin 1) (0 : Fin 1) := Shape.idx_ext₂ rfl rfl
  rw [el, er]

theorem xwSrcR_apply (e : Fin 85000000) :
    val_main_v39 (F := Ideal) x0 x1 x2 (ix2 e (0 : Fin 1))
      = x0 (ix2 (clampRow 5000000 (by decide) (asCol (wrapN (endsK 0 x1)) (ix2 e (0 : Fin 1)))) (0 : Fin 1)) * x2 (ix2 (0 : Fin 1) (0 : Fin 1)) := by
  have h := gather_rows_clamp (N := 5000000) (E := 85000000) (C := 1) (by decide)
    Cert.ReferenceIdeal.gather_S5000000x1_S85000000x1_S85000000x1_1_0_n_n_0_1_11.wf (val_main_v0 (F := Ideal) x0 x2) (val_main_v38 (F := Ideal) x1) e (0 : Fin 1)
  rw [← srcCol_eq'] at h
  exact h.trans (xwR_apply x0 x2 _)

end Stages

/-! ## Along the kernel's run -/

open Cert.KernelIdeal Cert.KernelIdeal.Gen

variable (m : (ℓ : Loc nD τ sig) → Buf (Elt Ideal) ℓ) (ρ : Dev nD → PrngReg)

/-- The per-edge message: the reference's column at `(e, 0)` is the kernel's flat array at `e`. -/
theorem msg_eq (c : Dev nD) (e : Fin 85000000) :
    val_main_v41 (F := Ideal) (feats m c) (edges m c) (argW m c) (ix2 e (0 : Fin 1))
      = msgK m ρ c (ix1 e) := by
  rw [msgK_apply, xwSrc_apply, disSrc_eq, disDst_eq, disSrc_ref, disDst_ref]
  rw [val_main_v41_apply, val_main_v40_apply, val_main_v32_apply, xwSrcR_apply]
  have ei : idx_main_v40 (ix2 e (0 : Fin 1)) = ix1 e := funext fun a => match a with | ⟨0, _⟩ => rfl
  rw [ei]
  exact (mul_assoc _ _ _).symm

/-- A scatter-add of a column of updates into a column operand, read at `(n, 0)`, is the scatter-add of the flat updates
    into the flat operand at the same index column, read at `n` — for any operands and updates that agree entry by entry. -/
theorem scatter_bridge (zK : S5000000.Idx → EReal) (zR : Cert.ReferenceIdeal.S5000000x1.Idx → EReal)
    (hz : ∀ n : Fin 5000000, zR (ix2 n (0 : Fin 1)) = zK (ix1 n))
    (u1 : S85000000.Idx → EReal) (u2 : Cert.ReferenceIdeal.S85000000x1.Idx → EReal)
    (hu : ∀ e : Fin 85000000, u2 (ix2 e (0 : Fin 1)) = u1 (ix1 e))
    (idx : IVec Cert.ReferenceIdeal.S85000000x1 32) (n : Fin 5000000) :
    Host.scatterAdd (F := Ideal) (φ := FTy.f32) Cert.ReferenceIdeal.scatter_S5000000x1_S85000000x1_S85000000x1_1_0_0_1 zR idx u2 (ix2 n (0 : Fin 1))
      = Host.scatterAdd (F := Ideal) (φ := FTy.f32) Cert.KernelIdeal.scatter_S5000000_S85000000x1_S85000000_n_0_0_1 zK idx u1 (ix1 n) := by
  have eR : Cert.ReferenceIdeal.scatter_S5000000x1_S85000000x1_S85000000x1_1_0_0_1
      = Cert.LibScatterCol.colScatterDims 5000000 85000000 Cert.ReferenceIdeal.scatter_S5000000x1_S85000000x1_S85000000x1_1_0_0_1.wf := rfl
  have eK : Cert.KernelIdeal.scatter_S5000000_S85000000x1_S85000000_n_0_0_1
      = Cert.LibScatterCol.vecScatterDims 5000000 85000000 Cert.KernelIdeal.scatter_S5000000_S85000000x1_S85000000_n_0_0_1.wf := rfl
  rw [eR, eK]
  exact Cert.LibScatterCol.scatterAdd_col_eq_vec _ _ zK zR hz u1 u2 hu idx n

/-- The reference's zero column and the kernel's zero vector agree entry by entry. -/
theorem zeros_eq (n : Fin 5000000) :
    val_main_v42 (F := Ideal) (ix2 n (0 : Fin 1))
      = broadcastInDim S5000000 ![] bcast_S_S5000000 (constant (F := Ideal) S_ .f32 0x00000000#32) (ix1 n) := rfl

/-- The aggregate: the reference's column at `(n, 0)` is the kernel's flat array at `n`. -/
theorem agg_eq (c : Dev nD) (n : Fin 5000000) :
    val_main_v44 (F := Ideal) (feats m c) (edges m c) (argW m c) (ix2 n (0 : Fin 1)) = aggK m ρ c (ix1 n) := by
  unfold val_main_v44 aggK
  rw [tgtCol_eq]
  exact scatter_bridge (broadcastInDim S5000000 ![] bcast_S_S5000000 (constant (F := Ideal) S_ .f32 0x00000000#32))
    (val_main_v42 (F := Ideal)) zeros_eq (msgK m ρ c) (val_main_v41 (F := Ideal) (feats m c) (edges m c) (argW m c))
    (fun e => msg_eq m ρ c e) (val_main_v43 (F := Ideal) (edges m c)) n

/-- THE RESULT: the kernel's result array is the reference's stage of the launch arguments. -/
theorem result_eq (c : Dev nD) :
    W16 m ρ c (Proc.devRef .tc main_v58)
      = val_main_v53 (F := Ideal) (feats m c) (edges m c) (argW m c) (argB m c) (argFcW m c) (argFcB m c) := by
  funext i
  obtain ⟨g, q, rfl⟩ : ∃ (g : Fin 100000) (q : Fin 2), i = ix2 g q := ⟨i 0, i 1, eq_ix2 i⟩
  rw [out_apply, zero_add, val_main_v53_apply, Ideal.addf_def, val_main_v50_apply, val_main_v52_apply, val_main_v51_apply]
  have e5 : idx_main_v51 (idx_main_v52 (ix2 g q)) = ix1 q := funext fun a => match a with | ⟨0, _⟩ => rfl
  rw [e5]
  refine congrArg₂ (· + ·) (Finset.sum_congr rfl fun k _ => ?_) rfl
  have e48 : idx_main_v48 (lidx_main_v50 (ix2 g q) k)
      = ix2 (⟨g.val * 50 + k.val, by have := g.isLt; have := k.isLt; omega⟩ : Fin 5000000) (0 : Fin 1) :=
    Shape.idx_ext₂ (by show (g.val * 50 + k.val) / 1 = g.val * 50 + k.val; omega) rfl
  have e45 : idx_main_v45 (idx_main_v46 (idx_main_v48 (lidx_main_v50 (ix2 g q) k))) = ix1 (0 : Fin 1) :=
    funext fun a => match a with | ⟨0, _⟩ => rfl
  have e49 : idx_main_v49 (ridx_main_v50 (ix2 g q) k) = ix2 q k := Shape.idx_ext₂ rfl rfl
  rw [val_main_v48_apply, val_main_v47_apply, Ideal.addf_def, val_main_v46_apply, val_main_v45_apply, val_main_v49_apply,
    e45, e49, e48, agg_eq m ρ c]

end Cert.Proof.Bridge

end
-- ==== Proof.lean ====
/-
  A graph convolution followed by a per-graph linear classifier, computed two ways, ends with the same logits.

  Both programs take node features `x : [N, 1]`, an edge list `[2, E]` of 32-bit node indices, a 1×1 weight `w`, a bias
  `b`, and a classifier `(W : [2, 50], fcb : [2])`, with `N = 5,000,000` nodes in 100,000 graphs of 50. With the self
  loops appended to the edge list, `deg` the number of edges into a node and `dis = (max deg 1)^(-1/2)` where `deg > 0`
  (zero elsewhere), the message of an edge `s → t` is `x[s]·w·dis[s]·dis[t]`; a node's aggregate is the sum of the messages
  into it; and graph `g`'s logit for class `q` is `∑ₖ (agg[50g + k] + b)·W[q, k] + fcb[q]`.

  The kernel program does the per-node arithmetic, the per-edge product and the classifier in three pipelined kernel
  regions over padded, row-tiled copies of flat arrays, and the gathers and scatter-adds on the host over flat vectors;
  the reference does everything on the host over column arrays. On the extended reals the two agree exactly: padding and
  tiling cancel against untiling, a contraction over an axis of length one is a product, the edge product is regrouped by
  associativity of multiplication (which holds at the infinities too, so the finiteness of the inputs is never used), and a
  scatter-add of a column of updates into a column is the scatter-add of the flat updates into the flat vector. An index
  out of range is treated alike on both sides: a gather clamps it, a scatter-add drops it.

  The three frames are the programs' runs with the results forgotten; the idealization rewrote nothing, so `preserves` is
  trivial; `algebraic` pairs the kernel program's run (its result array read through the three regions) with the
  reference's run, both posts stated at the reference's stage of the arguments.
-/
import proofs.«153830_j48180943127420_1_alg».proof.Defs
import proofs.«153830_j48180943127420_1_alg».proof.Proof.Gen.Kernel
import proofs.«153830_j48180943127420_1_alg».proof.Proof.Gen.Kernel.Skeleton
import proofs.«153830_j48180943127420_1_alg».proof.Proof.Gen.Kernel.Launch
import proofs.«153830_j48180943127420_1_alg».proof.Proof.Gen.Kernel.Points
import proofs.«153830_j48180943127420_1_alg».proof.Proof.Gen.Kernel.Frame
import proofs.«153830_j48180943127420_1_alg».proof.Proof.Gen.KernelIdeal
import proofs.«153830_j48180943127420_1_alg».proof.Proof.Gen.KernelIdeal.Skeleton
import proofs.«153830_j48180943127420_1_alg».proof.Proof.Gen.KernelIdeal.Launch
import proofs.«153830_j48180943127420_1_alg».proof.Proof.Gen.KernelIdeal.Points
import proofs.«153830_j48180943127420_1_alg».proof.Proof.Gen.KernelIdeal.Frame
import proofs.«153830_j48180943127420_1_alg».proof.Proof.Gen.ReferenceIdeal
import proofs.«153830_j48180943127420_1_alg».proof.Proof.Gen.Pre_finite_inputs
import proofs.«153830_j48180943127420_1_alg».proof.Proof.KRun
import proofs.«153830_j48180943127420_1_alg».proof.Proof.RefRun
import proofs.«153830_j48180943127420_1_alg».proof.Proof.Bridge
import Idealize.ShloMosaic.Adequacy
import Idealize.ShloMosaic.Init

noncomputable section

namespace Cert.Proof

open Idealize.ShloMosaic Idealize.SL.Sem

/-- The word-level kernel program terminates without a fault and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The kernel program's result array and the reference's are one function of arguments that agree. -/
theorem algebraic : Cert.algebraic_KernelIdeal_ReferenceIdeal := by
  intro m ρ m' ρ' _ hagree
  refine ⟨fun c => Cert.ReferenceIdeal.ReadP.val_main_v53 (F := Ideal)
      (Cert.KernelIdeal.KChain.feats m c) (Cert.KernelIdeal.KChain.edges m c) (Cert.KernelIdeal.KChain.argW m c)
      (Cert.KernelIdeal.KChain.argB m c) (Cert.KernelIdeal.KChain.argFcW m c) (Cert.KernelIdeal.KChain.argFcB m c), ?_, ?_⟩
  · exact (θ_run Cert.KernelIdeal.defs _ _).mono
      (fun r h c => ⟨(h c).1.trans (Cert.Proof.Bridge.result_eq m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v53_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, Cert.Proof.RefRun.frame_ri, trivial, algebraic⟩

end Cert.Proof

end
